-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x64 : Shape := ⟨4, ![8, 128, 128, 64]⟩
abbrev S8x128 : Shape := ⟨2, ![8, 128]⟩
abbrev S960x64 : Shape := ⟨2, ![960, 64]⟩
abbrev S_ : Shape := ⟨0, ![]⟩

class Facts : Prop where
  bcast_S_S8x128x128x64 : S_.BroadcastsInDim S8x128x128x64 (![] : Fin 0 → Fin S8x128x128x64.rank)
  reducesTo_S8x128x128x64_S_d0_1_2_3 : S8x128x128x64.ReducesTo [0, 1, 2, 3] S_
  h_S_ : 0 < S_.numel
  bcast_S_S960x64 : S_.BroadcastsInDim S960x64 (![] : Fin 0 → Fin S960x64.rank)
  reducesTo_S960x64_S_d0_1 : S960x64.ReducesTo [0, 1] S_

variable [Facts]

def fn {F : FTy → Type} [FloatOps F] (main_arg0 : FVec F S8x128x128x64 .f32) (main_arg1 : IVec S8x128 1) (main_arg2 : FVec F S960x64 .f32) : IVec S_ 1 :=
  let main_v0 : FVec F S8x128x128x64 .f32 := Host.absf main_arg0
  let main_cst : FVec F S_ .f32 := constant S_ .f32 0x7F800000#32
  let main_v1 : FVec F S8x128x128x64 .f32 := broadcastInDim S8x128x128x64 ![] bcast_S_S8x128x128x64 main_cst
  let main_v2 : IVec S8x128x128x64 1 := cmpf .olt main_v0 main_v1
  let main_c : IVec S_ 1 := constantI S_ 1 1#1
  let main_v3 : IVec S_ 1 := (fun x v => Host.reduce IntOp.andi x v reducesTo_S8x128x128x64_S_d0_1_2_3 h_S_) main_v2 main_c
  let main_v4 : FVec F S960x64 .f32 := Host.absf main_arg2
  let main_cst_0 : FVec F S_ .f32 := constant S_ .f32 0x7F800000#32
  let main_v5 : FVec F S960x64 .f32 := broadcastInDim S960x64 ![] bcast_S_S960x64 main_cst_0
  let main_v6 : IVec S960x64 1 := cmpf .olt main_v4 main_v5
  let main_c_1 : IVec S_ 1 := constantI S_ 1 1#1
  let main_v7 : IVec S_ 1 := (fun x v => Host.reduce IntOp.andi x v reducesTo_S960x64_S_d0_1 h_S_) main_v6 main_c_1
  let main_v8 : IVec S_ 1 := andi main_v3 main_v7
  main_v8
-- ==== Kernel.lean ====
abbrev S8x128x128x64 : Shape := ⟨4, ![8, 128, 128, 64]⟩
abbrev S8x128 : Shape := ⟨2, ![8, 128]⟩
abbrev S960x64 : Shape := ⟨2, ![960, 64]⟩
abbrev S8x1x128 : Shape := ⟨3, ![8, 1, 128]⟩
abbrev S1x128x128x64 : Shape := ⟨4, ![1, 128, 128, 64]⟩
abbrev S1x1x128 : Shape := ⟨3, ![1, 1, 128]⟩
abbrev S128x128x64 : Shape := ⟨3, ![128, 128, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S128x64 : Shape := ⟨2, ![128, 64]⟩
abbrev S64 : Shape := ⟨1, ![64]⟩
abbrev S128x1x64 : Shape := ⟨3, ![128, 1, 64]⟩
abbrev S1x128x64 : Shape := ⟨3, ![1, 128, 64]⟩
abbrev S1x1x64 : Shape := ⟨3, ![1, 1, 64]⟩
abbrev S16384x64 : Shape := ⟨2, ![16384, 64]⟩
abbrev S64x64 : Shape := ⟨2, ![64, 64]⟩

abbrev nBuf : Space → Nat
  | .hbm => 6
  | .vmem => 7
  | .smem => 0
  | _ => 0

abbrev bufTy : (tb : Table) → Fin (tcTables nBuf tb) → BufTy
  | .hbm, ⟨0, _⟩ => ⟨S8x128x128x64, .f32⟩
  | .hbm, ⟨1, _⟩ => ⟨S8x128, .i1⟩
  | .hbm, ⟨2, _⟩ => ⟨S960x64, .f32⟩
  | .hbm, ⟨3, _⟩ => ⟨S8x128, .f32⟩
  | .hbm, ⟨4, _⟩ => ⟨S8x1x128, .f32⟩
  | .hbm, ⟨5, _⟩ => ⟨S8x128x128x64, .f32⟩
  | .local _ .vmem, ⟨0, _⟩ => ⟨S1x128x128x64, .f32⟩
  | .local _ .vmem, ⟨1, _⟩ => ⟨S1x128x128x64, .f32⟩
  | .local _ .vmem, ⟨2, _⟩ => ⟨S1x1x128, .f32⟩
  | .local _ .vmem, ⟨3, _⟩ => ⟨S1x1x128, .f32⟩
  | .local _ .vmem, ⟨4, _⟩ => ⟨S960x64, .f32⟩
  | .local _ .vmem, ⟨5, _⟩ => ⟨S1x128x128x64, .f32⟩
  | .local _ .vmem, ⟨6, _⟩ => ⟨S1x128x128x64, .f32⟩
  | _, _ => ⟨S8x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S960x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S8x128_S8x1x128_0_2 : S8x128.BroadcastsInDim S8x1x128 (![0, 2] : Fin 2 → Fin S8x1x128.rank)
  inb_S1x128x128x64_S1x128x128x64_0_0_0_0 : ∀ a, (![0, 0, 0, 0] : Fin 4 → Nat) a + S1x128x128x64.size a ≤ S1x128x128x64.size a
  h_S1x128x128x64 : 0 < S1x128x128x64.numel
  shapeCasts_S1x128x128x64_S128x128x64 : S1x128x128x64.ShapeCasts S128x128x64
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  shapeCasts_S128_S128x1 : S128.ShapeCasts S128x1
  shapeCasts_S128_S1x128 : S128.ShapeCasts S1x128
  broadcasts_S128x1_S128x128 : S128x1.Broadcasts S128x128
  broadcasts_S1x128_S128x128 : S1x128.Broadcasts S128x128
  shapeCasts_S128x128_S128x128x1 : S128x128.ShapeCasts S128x128x1
  broadcasts_S128x128x1_S128x128x64 : S128x128x1.Broadcasts S128x128x64
  transposes_S128x128x64_p1_0_2_S128x128x64 : S128x128x64.Transposes [1, 0, 2] S128x128x64
  iota_S128x128_d0_w32 : S128x128.Iotas .tc 32 [0]
  iota_S128x128_d1_w32 : S128x128.Iotas .tc 32 [1]
  natLt_1_32 : 1 < 32
  reduces_S128x128x64_S128x64 : S128x128x64.Reduces [1] S128x64
  reduces_S128x128x64_S128x64_2 : S128x128x64.Reduces [0] S128x64
  reduces_S128x64_S64 : S128x64.Reduces [0] S64
  shapeCasts_S128x64_S128x1x64 : S128x64.ShapeCasts S128x1x64
  shapeCasts_S128x64_S1x128x64 : S128x64.ShapeCasts S1x128x64
  shapeCasts_S64_S1x1x64 : S64.ShapeCasts S1x1x64
  broadcasts_S128x1x64_S128x128x64 : S128x1x64.Broadcasts S128x128x64
  broadcasts_S1x128x64_S128x128x64 : S1x128x64.Broadcasts S128x128x64
  broadcasts_S1x1x64_S128x1x64 : S1x1x64.Broadcasts S128x1x64
  shapeCasts_S128x128x64_S16384x64 : S128x128x64.ShapeCasts S16384x64
  bitsLt_bf16_f32 : FTy.bits .bf16 < FTy.bits .f32
  inb_S960x64_S64x64_0_0 : ∀ a, (![0, 0] : Fin 2 → Nat) a + S64x64.size a ≤ S960x64.size a
  h_S64x64 : 0 < S64x64.numel
  shapeCasts_S16384x64_S128x128x64 : S16384x64.ShapeCasts S128x128x64
  inb_S960x64_S64x64_64_0 : ∀ a, (![64, 0] : Fin 2 → Nat) a + S64x64.size a ≤ S960x64.size a
  inb_S960x64_S64x64_128_0 : ∀ a, (![128, 0] : Fin 2 → Nat) a + S64x64.size a ≤ S960x64.size a
  inb_S960x64_S64x64_192_0 : ∀ a, (![192, 0] : Fin 2 → Nat) a + S64x64.size a ≤ S960x64.size a
  inb_S960x64_S64x64_256_0 : ∀ a, (![256, 0] : Fin 2 → Nat) a + S64x64.size a ≤ S960x64.size a
  inb_S960x64_S64x64_320_0 : ∀ a, (![320, 0] : Fin 2 → Nat) a + S64x64.size a ≤ S960x64.size a
  inb_S960x64_S64x64_384_0 : ∀ a, (![384, 0] : Fin 2 → Nat) a + S64x64.size a ≤ S960x64.size a
  inb_S960x64_S64x64_448_0 : ∀ a, (![448, 0] : Fin 2 → Nat) a + S64x64.size a ≤ S960x64.size a
  inb_S960x64_S64x64_512_0 : ∀ a, (![512, 0] : Fin 2 → Nat) a + S64x64.size a ≤ S960x64.size a
  inb_S960x64_S64x64_576_0 : ∀ a, (![576, 0] : Fin 2 → Nat) a + S64x64.size a ≤ S960x64.size a
  inb_S960x64_S64x64_640_0 : ∀ a, (![640, 0] : Fin 2 → Nat) a + S64x64.size a ≤ S960x64.size a
  inb_S960x64_S64x64_704_0 : ∀ a, (![704, 0] : Fin 2 → Nat) a + S64x64.size a ≤ S960x64.size a
  inb_S960x64_S64x64_768_0 : ∀ a, (![768, 0] : Fin 2 → Nat) a + S64x64.size a ≤ S960x64.size a
  inb_S960x64_S64x64_832_0 : ∀ a, (![832, 0] : Fin 2 → Nat) a + S64x64.size a ≤ S960x64.size a
  inb_S960x64_S64x64_896_0 : ∀ a, (![896, 0] : Fin 2 → Nat) a + S64x64.size a ≤ S960x64.size a
  shapeCasts_S128x128x64_S1x128x128x64 : S128x128x64.ShapeCasts S1x128x128x64
  dot_S16384x64_S64x64_S16384x64_1_0_0_1_n_n_wf : DotDims.WF S16384x64 S64x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x64.size a ≤ S8x128x128x64.size a
  hwx0_0 : ∀ i : grid0.Coords, EltTy.bits .f32 = 32 ∨ (Rect.block (s := S8x128x128x64) S1x128x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S8x1x128.size a
  hwx0_1 : ∀ i : grid0.Coords, EltTy.bits .f32 = 32 ∨ (Rect.block (s := S8x1x128) S1x1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S960x64.size a ≤ S960x64.size a
  hwx0_2 : ∀ i : grid0.Coords, EltTy.bits .f32 = 32 ∨ (Rect.block (s := S960x64) S960x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128x64.size a ≤ S8x128x128x64.size a
  hwx0_3 : ∀ i : grid0.Coords, EltTy.bits .f32 = 32 ∨ (Rect.block (s := S8x128x128x64) S1x128x128x64.size (cc0_transform_3 i) (hinb0_3 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

abbrev win0_0 : Pipeline.Window sig grid0 :=
  Pipeline.Window.ofSpec (Memref.whole main_arg0) S1x128x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S960x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128x128x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x128x128x64 : Shape := ⟨4, ![8, 128, 128, 64]⟩
abbrev S8x128 : Shape := ⟨2, ![8, 128]⟩
abbrev S960x64 : Shape := ⟨2, ![960, 64]⟩
abbrev S8x128x1 : Shape := ⟨3, ![8, 128, 1]⟩
abbrev S8x1x128 : Shape := ⟨3, ![8, 1, 128]⟩
abbrev S8x128x128 : Shape := ⟨3, ![8, 128, 128]⟩
abbrev S8x128x128x1 : Shape := ⟨4, ![8, 128, 128, 1]⟩
abbrev S128x128 : Shape := ⟨2, ![128, 128]⟩
abbrev S_ : Shape := ⟨0, ![]⟩
abbrev S1x128x128x1 : Shape := ⟨4, ![1, 128, 128, 1]⟩
abbrev S8x128x64 : Shape := ⟨3, ![8, 128, 64]⟩
abbrev S8x64 : Shape := ⟨2, ![8, 64]⟩
abbrev S8x128x1x64 : Shape := ⟨4, ![8, 128, 1, 64]⟩
abbrev S8x1x128x64 : Shape := ⟨4, ![8, 1, 128, 64]⟩
abbrev S8x1x64 : Shape := ⟨3, ![8, 1, 64]⟩
abbrev S8x1x1x64 : Shape := ⟨4, ![8, 1, 1, 64]⟩
abbrev S8x128x128x960 : Shape := ⟨4, ![8, 128, 128, 960]⟩

abbrev nBuf : Space → Nat
  | .hbm => 132
  | .vmem => 0
  | .smem => 0
  | _ => 0

abbrev hbmTy0_0 (i : Nat) : BufTy := match i % 128 with
  | 0 => ⟨S8x128x128x64, .f32⟩
  | 1 => ⟨S8x128, .i1⟩
  | 2 => ⟨S960x64, .f32⟩
  | 3 => ⟨S8x128, .f32⟩
  | 4 => ⟨S8x128x1, .f32⟩
  | 5 => ⟨S8x1x128, .f32⟩
  | 6 => ⟨S8x128x128, .f32⟩
  | 7 => ⟨S8x128x128, .f32⟩
  | 8 => ⟨S8x128x128, .f32⟩
  | 9 => ⟨S8x128x128x1, .f32⟩
  | 10 => ⟨S8x128x128x64, .f32⟩
  | 11 => ⟨S8x128x128x64, .f32⟩
  | 12 => ⟨S8x128x128x64, .f32⟩
  | 13 => ⟨S128x128, .i32⟩
  | 14 => ⟨S128x128, .i32⟩
  | 15 => ⟨S_, .i32⟩
  | 16 => ⟨S128x128, .i32⟩
  | 17 => ⟨S128x128, .i32⟩
  | 18 => ⟨S128x128, .i1⟩
  | 19 => ⟨S128x128, .f32⟩
  | 20 => ⟨S1x128x128x1, .f32⟩
  | 21 => ⟨S_, .f32⟩
  | 22 => ⟨S128x128, .f32⟩
  | 23 => ⟨S128x128, .f32⟩
  | 24 => ⟨S1x128x128x1, .f32⟩
  | 25 => ⟨S128x128, .i32⟩
  | 26 => ⟨S128x128, .i32⟩
  | 27 => ⟨S128x128, .i1⟩
  | 28 => ⟨S8x128x128x64, .i1⟩
  | 29 => ⟨S_, .f32⟩
  | 30 => ⟨S8x128x128x64, .f32⟩
  | 31 => ⟨S8x128x128x64, .f32⟩
  | 32 => ⟨S_, .f32⟩
  | 33 => ⟨S8x128x64, .f32⟩
  | 34 => ⟨S_, .f32⟩
  | 35 => ⟨S8x128x64, .f32⟩
  | 36 => ⟨S8x128x64, .f32⟩
  | 37 => ⟨S_, .f32⟩
  | 38 => ⟨S8x128x64, .f32⟩
  | 39 => ⟨S8x128x64, .f32⟩
  | 40 => ⟨S_, .f32⟩
  | 41 => ⟨S8x64, .f32⟩
  | 42 => ⟨S_, .f32⟩
  | 43 => ⟨S8x64, .f32⟩
  | 44 => ⟨S8x64, .f32⟩
  | 45 => ⟨S8x128x128x64, .f32⟩
  | 46 => ⟨S8x128x128x64, .f32⟩
  | 47 => ⟨S8x128x128x64, .f32⟩
  | 48 => ⟨S8x128x128x64, .f32⟩
  | 49 => ⟨S8x128x128x64, .f32⟩
  | 50 => ⟨S8x128x128x64, .f32⟩
  | 51 => ⟨S8x128x1x64, .f32⟩
  | 52 => ⟨S8x128x128x64, .f32⟩
  | 53 => ⟨S8x128x128x64, .f32⟩
  | 54 => ⟨S8x128x128x64, .f32⟩
  | 55 => ⟨S8x1x128x64, .f32⟩
  | 56 => ⟨S8x128x128x64, .f32⟩
  | 57 => ⟨S8x128x128x64, .f32⟩
  | 58 => ⟨S8x128x128x64, .f32⟩
  | 59 => ⟨S8x128x1x64, .f32⟩
  | 60 => ⟨S8x128x128x64, .f32⟩
  | 61 => ⟨S8x128x128x64, .f32⟩
  | 62 => ⟨S8x128x128x64, .f32⟩
  | 63 => ⟨S8x128x1x64, .f32⟩
  | 64 => ⟨S8x128x128x64, .f32⟩
  | 65 => ⟨S8x128x128x64, .f32⟩
  | 66 => ⟨S8x128x128x64, .f32⟩
  | 67 => ⟨S8x1x128x64, .f32⟩
  | 68 => ⟨S8x128x128x64, .f32⟩
  | 69 => ⟨S8x128x128x64, .f32⟩
  | 70 => ⟨S8x128x128x64, .f32⟩
  | 71 => ⟨S8x128x128x64, .f32⟩
  | 72 => ⟨S8x128x1x64, .f32⟩
  | 73 => ⟨S8x128x128x64, .f32⟩
  | 74 => ⟨S8x128x128x64, .f32⟩
  | 75 => ⟨S8x128x128x64, .f32⟩
  | 76 => ⟨S8x128x128x64, .f32⟩
  | 77 => ⟨S8x1x128x64, .f32⟩
  | 78 => ⟨S8x128x128x64, .f32⟩
  | 79 => ⟨S8x128x128x64, .f32⟩
  | 80 => ⟨S8x128x128x64, .f32⟩
  | 81 => ⟨S8x128x128x64, .f32⟩
  | 82 => ⟨S8x128x1x64, .f32⟩
  | 83 => ⟨S8x128x128x64, .f32⟩
  | 84 => ⟨S8x128x128x64, .f32⟩
  | 85 => ⟨S8x128x128x64, .f32⟩
  | 86 => ⟨S8x128x128x64, .f32⟩
  | 87 => ⟨S8x1x64, .f32⟩
  | 88 => ⟨S8x128x64, .f32⟩
  | 89 => ⟨S8x128x64, .f32⟩
  | 90 => ⟨S8x128x1x64, .f32⟩
  | 91 => ⟨S8x128x128x64, .f32⟩
  | 92 => ⟨S8x128x128x64, .f32⟩
  | 93 => ⟨S8x128x128x64, .f32⟩
  | 94 => ⟨S8x1x64, .f32⟩
  | 95 => ⟨S8x128x64, .f32⟩
  | 96 => ⟨S8x128x64, .f32⟩
  | 97 => ⟨S8x128x64, .f32⟩
  | 98 => ⟨S8x128x1x64, .f32⟩
  | 99 => ⟨S8x128x128x64, .f32⟩
  | 100 => ⟨S8x128x128x64, .f32⟩
  | 101 => ⟨S8x128x128x64, .f32⟩
  | 102 => ⟨S8x1x1x64, .f32⟩
  | 103 => ⟨S8x128x1x64, .f32⟩
  | 104 => ⟨S8x128x1x64, .f32⟩
  | 105 => ⟨S8x128x1x64, .f32⟩
  | 106 => ⟨S8x1x128x64, .f32⟩
  | 107 => ⟨S8x128x128x64, .f32⟩
  | 108 => ⟨S8x128x128x64, .f32⟩
  | 109 => ⟨S8x128x128x64, .f32⟩
  | 110 => ⟨S8x128x128x64, .f32⟩
  | 111 => ⟨S8x128x128x64, .f32⟩
  | 112 => ⟨S8x1x1x64, .f32⟩
  | 113 => ⟨S8x128x1x64, .f32⟩
  | 114 => ⟨S8x128x1x64, .f32⟩
  | 115 => ⟨S8x128x1x64, .f32⟩
  | 116 => ⟨S8x1x128x64, .f32⟩
  | 117 => ⟨S8x128x128x64, .f32⟩
  | 118 => ⟨S8x128x128x64, .f32⟩
  | 119 => ⟨S8x128x128x64, .f32⟩
  | 120 => ⟨S8x128x1x64, .f32⟩
  | 121 => ⟨S8x128x128x64, .f32⟩
  | 122 => ⟨S8x128x128x64, .f32⟩
  | 123 => ⟨S8x1x128x64, .f32⟩
  | 124 => ⟨S8x128x128x64, .f32⟩
  | 125 => ⟨S8x128x128x64, .f32⟩
  | 126 => ⟨S8x128x128x64, .f32⟩
  | 127 => ⟨S8x128x128x64, .f32⟩
  | _ => ⟨S8x128x128x64, .f32⟩

abbrev hbmTy0_1 (i : Nat) : BufTy := match i % 128 with
  | 0 => ⟨S8x128x128x64, .f32⟩
  | 1 => ⟨S8x128x128x64, .f32⟩
  | 2 => ⟨S8x128x128x960, .f32⟩
  | 3 => ⟨S8x128x128x64, .f32⟩
  | _ => ⟨S8x128x128x64, .f32⟩

abbrev hbmTy (i : Nat) : BufTy := match i / 128 with
  | 0 => hbmTy0_0 i
  | 1 => hbmTy0_1 i
  | _ => ⟨S8x128x128x64, .f32⟩

abbrev bufTy : (tb : Table) → Fin (tcTables nBuf tb) → BufTy
  | .hbm, ⟨i, _⟩ => hbmTy i
  | _, _ => ⟨S8x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩

abbrev nD : Nat := 1
abbrev τ : Topo := Topo.v7x

variable {F : FTy → Type} [FloatOps F]

class Facts₀ : Prop where
  bcast_S8x128_S8x128x1_0_1 : S8x128.BroadcastsInDim S8x128x1 (![0, 1] : Fin 2 → Fin S8x128x1.rank)
  bcast_S8x128_S8x1x128_0_2 : S8x128.BroadcastsInDim S8x1x128 (![0, 2] : Fin 2 → Fin S8x1x128.rank)
  bcast_S8x128x1_S8x128x128_0_1_2 : S8x128x1.BroadcastsInDim S8x128x128 (![0, 1, 2] : Fin 3 → Fin S8x128x128.rank)
  bcast_S8x1x128_S8x128x128_0_1_2 : S8x1x128.BroadcastsInDim S8x128x128 (![0, 1, 2] : Fin 3 → Fin S8x128x128.rank)
  bcast_S8x128x128_S8x128x128x1_0_1_2 : S8x128x128.BroadcastsInDim S8x128x128x1 (![0, 1, 2] : Fin 3 → Fin S8x128x128x1.rank)
  bcast_S8x128x128x1_S8x128x128x64_0_1_2_3 : S8x128x128x1.BroadcastsInDim S8x128x128x64 (![0, 1, 2, 3] : Fin 4 → Fin S8x128x128x64.rank)
  transposes_S8x128x128x64_S8x128x128x64_0_2_1_3 : S8x128x128x64.Transposes [0, 2, 1, 3] S8x128x128x64
  bcast_S_S128x128 : S_.BroadcastsInDim S128x128 (![] : Fin 0 → Fin S128x128.rank)
  bcast_S128x128_S1x128x128x1_1_2 : S128x128.BroadcastsInDim S1x128x128x1 (![1, 2] : Fin 2 → Fin S1x128x128x1.rank)
  bcast_S128x128_S8x128x128x64_1_2 : S128x128.BroadcastsInDim S8x128x128x64 (![1, 2] : Fin 2 → Fin S8x128x128x64.rank)
  bcast_S_S8x128x128x64 : S_.BroadcastsInDim S8x128x128x64 (![] : Fin 0 → Fin S8x128x128x64.rank)
  reducesTo_S8x128x128x64_S8x128x64_d1 : S8x128x128x64.ReducesTo [1] S8x128x64
  h_S_ : 0 < S_.numel
  reducesTo_S8x128x128x64_S8x128x64_d2 : S8x128x128x64.ReducesTo [2] S8x128x64
  reducesTo_S8x128x64_S8x64_d1 : S8x128x64.ReducesTo [1] S8x64
  reducesTo_S8x128x128x64_S8x64_d1_2 : S8x128x128x64.ReducesTo [1, 2] S8x64
  bcast_S1x128x128x1_S8x128x128x64_0_1_2_3 : S1x128x128x1.BroadcastsInDim S8x128x128x64 (![0, 1, 2, 3] : Fin 4 → Fin S8x128x128x64.rank)
  bcast_S8x128x64_S8x128x1x64_0_1_3 : S8x128x64.BroadcastsInDim S8x128x1x64 (![0, 1, 3] : Fin 3 → Fin S8x128x1x64.rank)
  bcast_S8x128x1x64_S8x128x128x64_0_1_2_3 : S8x128x1x64.BroadcastsInDim S8x128x128x64 (![0, 1, 2, 3] : Fin 4 → Fin S8x128x128x64.rank)
  bcast_S8x128x64_S8x1x128x64_0_2_3 : S8x128x64.BroadcastsInDim S8x1x128x64 (![0, 2, 3] : Fin 3 → Fin S8x1x128x64.rank)
  bcast_S8x1x128x64_S8x128x128x64_0_1_2_3 : S8x1x128x64.BroadcastsInDim S8x128x128x64 (![0, 1, 2, 3] : Fin 4 → Fin S8x128x128x64.rank)
  bcast_S8x64_S8x1x64_0_2 : S8x64.BroadcastsInDim S8x1x64 (![0, 2] : Fin 2 → Fin S8x1x64.rank)
  bcast_S8x1x64_S8x128x64_0_1_2 : S8x1x64.BroadcastsInDim S8x128x64 (![0, 1, 2] : Fin 3 → Fin S8x128x64.rank)
  bcast_S8x64_S8x1x1x64_0_3 : S8x64.BroadcastsInDim S8x1x1x64 (![0, 3] : Fin 2 → Fin S8x1x1x64.rank)
  bcast_S8x1x1x64_S8x128x1x64_0_1_2_3 : S8x1x1x64.BroadcastsInDim S8x128x1x64 (![0, 1, 2, 3] : Fin 4 → Fin S8x128x1x64.rank)
  concatenates_S8x128x128x64_S8x128x128x64_S8x128x128x64_S8x128x128x64_S8x128x128x64_S8x128x128x64_S8x128x128x64_S8x128x128x64_S8x128x128x64_S8x128x128x64_S8x128x128x64_S8x128x128x64_S8x128x128x64_S8x128x128x64_S8x128x128x64_S8x128x128x960_d3 : Shape.Concatenates [S8x128x128x64, S8x128x128x64, S8x128x128x64, S8x128x128x64, S8x128x128x64, S8x128x128x64, S8x128x128x64, S8x128x128x64, S8x128x128x64, S8x128x128x64, S8x128x128x64, S8x128x128x64, S8x128x128x64, S8x128x128x64, S8x128x128x64] S8x128x128x960 3
  dot_S8x128x128x960_S960x64_S8x128x128x64_3_0_012_1_n_n_wf : DotDims.WF S8x128x128x960 S960x64 S8x128x128x64 [3] [0] [0, 1, 2] [1] [] []

variable [Facts₀]

def dot_S8x128x128x960_S960x64_S8x128x128x64_3_0_012_1_n_n : DotDims S8x128x128x960 S960x64 S8x128x128x64 where
  lhsContracting := [3]
  rhsContracting := [0]
  lhsNonContracting := [0, 1, 2]
  rhsNonContracting := [1]
  lhsBatch := []
  rhsBatch := []
  wf := dot_S8x128x128x960_S960x64_S8x128x128x64_3_0_012_1_n_n_wf

class Facts : Prop extends Facts₀ where

variable [Facts]
-- ==== Proof.Spec.lean ====
/-
  The layer both programs compute, as mathematics over the extended reals.

  Fix one batch element.  From an array A of shape 128 × 128 × 64 and a node mask mk of length 128 form the masked
  array  a i j d = A i j d · (mk i · mk j).  Out of a the equivariant 2→2 layer builds fifteen arrays of the same
  shape (piece a k, k = 0 … 14): a and its transpose restricted to the diagonal or to its complement, the diagonal
  dg, the off-diagonal row and column sums row, col, the trace tr and the off-diagonal total os, each spread along
  rows, along columns or everywhere and again cut by the diagonal selector eye or its complement ne.
  The layer's output is the contraction of the fifteen pieces, laid side by side along the last axis (960 = 15 · 64
  channels), with a weight matrix w of shape 960 × 64:
      out i j o = ∑ K < 960, piece a (K / 64) i j (K % 64) · w K o.
  The same number is reached by contracting each piece with its own 64 rows of w and adding the fifteen results one
  after the other onto zero (outAcc): a sum over 960 = 15 · 64 indices split into fifteen runs of 64
  (out_eq_outAcc).  Only commutativity and associativity of + are used, so no finiteness is needed.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Basis

open Idealize.ShloMosaic

/-- The diagonal selector on node pairs. -/
def eye (i j : Fin 128) : EReal := if i = j then 1 else 0

/-- Its complement, written as both programs compute it: the float 1.0 minus the selector. -/
def ne (i j : Fin 128) : EReal := Ideal.ofBits .f32 0x3F800000#32 - eye i j

/-- The masked array: an entry survives when both of its nodes are present. -/
def am (A : Fin 128 → Fin 128 → Fin 64 → EReal) (mk : Fin 128 → EReal) (i j : Fin 128) (d : Fin 64) : EReal :=
  A i j d * (mk i * mk j)

variable (a : Fin 128 → Fin 128 → Fin 64 → EReal)

/-- The diagonal. -/
def dg (i : Fin 128) (d : Fin 64) : EReal := a i i d
/-- A row's sum without its diagonal entry. -/
def row (i : Fin 128) (d : Fin 64) : EReal := (∑ k : Fin 128, a i k d) - dg a i d
/-- A column's sum without its diagonal entry. -/
def col (i : Fin 128) (d : Fin 64) : EReal := (∑ k : Fin 128, a k i d) - dg a i d
/-- The trace. -/
def tr (d : Fin 64) : EReal := ∑ k : Fin 128, dg a k d
/-- The sum of all entries. -/
def tot (d : Fin 64) : EReal := ∑ i : Fin 128, ∑ j : Fin 128, a i j d
/-- The sum of the off-diagonal entries. -/
def os (d : Fin 64) : EReal := tot a d - tr a d

/-- The fifteen basis arrays, in the order in which they are laid side by side. -/
def piece : Nat → Fin 128 → Fin 128 → Fin 64 → EReal
  | 0 => fun i j d => a i j d * eye i j
  | 1 => fun i j d => a i j d * ne i j
  | 2 => fun i j d => a j i d * ne i j
  | 3 => fun i j d => dg a i d * ne i j
  | 4 => fun i j d => dg a j d * ne i j
  | 5 => fun i j d => row a i d * eye i j
  | 6 => fun i j d => col a i d * eye i j
  | 7 => fun i j d => (row a j d - a j i d) * ne i j
  | 8 => fun i j d => (col a i d - a j i d) * ne i j
  | 9 => fun i j d => (col a j d - a i j d) * ne i j
  | 10 => fun i j d => (row a i d - a i j d) * ne i j
  | 11 => fun i j d => (tr a d - dg a i d) * eye i j
  | 12 => fun i j d => (os a d - row a i d - col a i d) * eye i j
  | 13 => fun i j d => (tr a d - dg a i d - dg a j d) * ne i j
  | 14 => fun i j d => (os a d - row a i d - row a j d - col a i d - col a j d + a i j d + a j i d) * ne i j
  | _ => fun _ _ _ => 0

variable (w : Fin 960 → Fin 64 → EReal)

/-- Channel K of the side-by-side array belongs to piece K / 64, at that piece's channel K % 64. -/
def chan (K : Fin 960) : Fin 64 := ⟨K.val % 64, Nat.mod_lt _ (by decide)⟩

/-- The layer's output: one contraction over the 960 channels. -/
def out (i j : Fin 128) (o : Fin 64) : EReal :=
  ∑ K : Fin 960, piece a (K.val / 64) i j (chan K) * w K o

/-- Row 64 k + d of the weight matrix: row d of piece k's own block of rows. -/
def wrow (k : Fin 15) (d : Fin 64) : Fin 960 := ⟨64 * k.val + d.val, by have := k.isLt; have := d.isLt; omega⟩

/-- Piece k contracted with its own 64 rows of the weight matrix. -/
def part (k : Fin 15) (i j : Fin 128) (o : Fin 64) : EReal :=
  ∑ d : Fin 64, piece a k.val i j d * w (wrow k d) o

/-- The fifteen partial contractions added one after the other onto zero. -/
def outAcc (i j : Fin 128) (o : Fin 64) : EReal :=
  ((((((((((((((0 + part a w 0 i j o) + part a w 1 i j o) + part a w 2 i j o) + part a w 3 i j o) + part a w 4 i j o)
    + part a w 5 i j o) + part a w 6 i j o) + part a w 7 i j o) + part a w 8 i j o) + part a w 9 i j o)
    + part a w 10 i j o) + part a w 11 i j o) + part a w 12 i j o) + part a w 13 i j o) + part a w 14 i j o

/-- A sum over 960 = 15 · 64 indices is the sum of its fifteen runs of 64. -/
theorem sum_960 (f : Fin 960 → EReal) : ∑ K : Fin 960, f K = ∑ k : Fin 15, ∑ d : Fin 64, f (wrow k d) := by
  rw [← Fintype.sum_prod_type' (f := fun (k : Fin 15) (d : Fin 64) => f (wrow k d))]
  refine (Fintype.sum_equiv (finProdFinEquiv (m := 15) (n := 64)) _ _ fun p => ?_).symm
  refine congrArg f (Fin.ext ?_)
  show 64 * p.1.val + p.2.val = p.2.val + 64 * p.1.val
  omega

theorem wrow_div (k : Fin 15) (d : Fin 64) : (wrow k d).val / 64 = k.val := by
  show (64 * k.val + d.val) / 64 = k.val
  have := d.isLt; omega

theorem chan_wrow (k : Fin 15) (d : Fin 64) : chan (wrow k d) = d := by
  refine Fin.ext ?_
  show (64 * k.val + d.val) % 64 = d.val
  have := d.isLt; omega

/-- The one contraction over 960 channels is the fifteen 64-channel contractions accumulated onto zero. -/
theorem out_eq_outAcc (i j : Fin 128) (o : Fin 64) : out a w i j o = outAcc a w i j o := by
  unfold out outAcc
  rw [sum_960]
  simp only [wrow_div, chan_wrow]
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_castSucc,
    Fin.sum_univ_zero]
  rfl

/-! ## The selector, as each program spells it -/

/-- Multiplying by the selector and summing a row keeps the diagonal entry: x · 0 = 0 and x · 1 = x hold for every
    extended real. -/
theorem sum_mul_eye (f : Fin 128 → EReal) (i : Fin 128) : ∑ k : Fin 128, f k * eye i k = f i := by
  rw [Finset.sum_eq_single i]
  · simp [eye]
  · intro k _ hk
    have : ¬ i = k := fun h => hk h.symm
    simp [eye, this]
  · intro h; exact absurd (Finset.mem_univ i) h

/-- Selecting the diagonal entry and summing keeps it. -/
theorem sum_ite_diag (f : Fin 128 → EReal) (i : Fin 128) : ∑ k : Fin 128, (if k = i then f k else 0) = f i := by
  rw [Finset.sum_ite_eq' Finset.univ i f]; simp

/-- Two node numbers, as 32-bit words, compare equal exactly when they are the same node. -/
theorem cmpi_eq_node (i j : Fin 128) :
    IntOp.cmpi .eq (BitVec.ofNat 32 i.val) (BitVec.ofNat 32 j.val) = if i = j then 1#1 else 0#1 := by
  have hi := i.isLt; have hj := j.isLt
  by_cases h : i = j
  · subst h; simp [IntOp.cmpi]
  · have hv : i.val ≠ j.val := fun e => h (Fin.ext e)
    have : ¬ (BitVec.ofNat 32 i.val = BitVec.ofNat 32 j.val) := by
      intro e
      have := congrArg BitVec.toNat e
      simp only [BitVec.toNat_ofNat] at this
      omega
    have hb : (BitVec.ofNat 32 i.val == BitVec.ofNat 32 j.val) = false := beq_eq_false_iff_ne.mpr this
    simp [IntOp.cmpi, h, hb]

end Cert.Basis

end
-- ==== Proof.KernelBase.lean ====
/-
  The kernel's base quantities at an index, at the ideal instance: the masked block, its transpose, the diagonal
  selector and its complement, the diagonal, the off-diagonal row and column sums, the trace and the off-diagonal
  total, each in the layout in which the body later spreads it.
-/
import proofs.«132667_j17351667876255_1_alg».proof.Proof.Gen.KernelIdeal.Skeleton
import proofs.«132667_j17351667876255_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx

/-! Layout operations read at an index given by coordinates. -/

section Layout
variable {α : Type}

/-- A `[1, 1, a]` array cast to `[a]` reads, at `i`, the operand at `(0, 0, i)`. -/
private theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- An `[a]` array cast to `[1, 1, a]` reads, at `(u, v, i)`, the operand at `i`. -/
private theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

/-- An `[a]` array cast to `[a, 1]` reads, at `(i, u)`, the operand at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- An `[a, b]` array cast to `[a, b, 1]` reads, at `(i, j, u)`, the operand at `(i, j)`. -/
private theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu]; omega)

/-- An `[a, b]` array cast to `[a, 1, b]` reads, at `(i, u, j)`, the operand at `(i, j)`. -/
private theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1]` array broadcast to `[a, b]` reads, at `(i, j)`, the operand's one column at `i`. -/
private theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` array broadcast to `[a, b, c]` reads, at `(i, j, d)`, the operand at `(i, j, 0)`. -/
private theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (d : Fin c) :
    broadcastTo ⟨3, ![a, b, c]⟩ v h (ix3 i j d) = v (ix3 i j (0 : Fin 1)) := by
  refine broadcastTo_apply v h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A rank-3 array with its first two axes swapped reads, at `(j, i, d)`, the operand at `(i, j, d)`. -/
private theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (d : Fin c) :
    transpose ⟨3, ![b, a, c]⟩ [1, 0, 2] x h (ix3 j i d) = x (ix3 i j d) :=
  transpose_apply _ x h _ _ fun e => match e with | ⟨0, _⟩ => rfl | ⟨1, _⟩ => rfl | ⟨2, _⟩ => rfl

end Layout

/-- The masked array of the batch element whose blocks the body has loaded. -/
abbrev aOf (x0 : Vec Ideal S1x128x128x64 .f32) (x1 : Vec Ideal S1x1x128 .f32) : Fin 128 → Fin 128 → Fin 64 → EReal :=
  Cert.Basis.am (fun i j d => x0 (ix4 (0 : Fin 1) i j d)) (fun i => x1 (ix3 (0 : Fin 1) (0 : Fin 1) i))

variable (x0 : Vec Ideal S1x128x128x64 .f32) (x1 : Vec Ideal S1x1x128 .f32)

theorem am_at (i j : Fin 128) (d : Fin 64) : k0_pay2 (F := Ideal) x0 x1 (ix3 i j d) = aOf x0 x1 i j d := by
  unfold k0_pay2
  refine (mulf_apply _ _ _).trans ?_
  show _ * _ = x0 (ix4 (0 : Fin 1) i j d) * (x1 (ix3 (0 : Fin 1) (0 : Fin 1) i) * x1 (ix3 (0 : Fin 1) (0 : Fin 1) j))
  congr 1
  · exact shapeCast_1abc_abc_apply _ _ i j d
  · refine (broadcastTo_ab1_abc_apply _ _ i j d).trans ?_
    refine (shapeCast_ab_ab1_apply _ _ i j (0 : Fin 1)).trans ?_
    refine (mulf_apply _ _ _).trans ?_
    congr 1
    · refine (broadcastTo_a1_ab_apply _ _ i j).trans ?_
      refine (shapeCast_a_a1_apply _ _ i (0 : Fin 1)).trans ?_
      exact shapeCast_11a_a_apply _ _ i
    · refine (broadcastTo_1b_ab_apply _ _ i j).trans ?_
      refine (shapeCast_a_1a_apply _ _ (0 : Fin 1) j).trans ?_
      exact shapeCast_11a_a_apply _ _ j

theorem amT_at (i j : Fin 128) (d : Fin 64) : k0_pay3 (F := Ideal) x0 x1 (ix3 i j d) = aOf x0 x1 j i d := by
  unfold k0_pay3
  refine (transpose_ix3_102_apply _ _ i j d).trans ?_
  exact am_at x0 x1 j i d

/-- The selector before its cast: the comparison of the two node numbers, widened and converted, is 1 on the diagonal
    and 0 off it. -/
private theorem sel_at (i j : Fin 128) : (k0_pay4 (F := Ideal)) (ix2 i j) = Cert.Basis.eye i j := by
  show FloatOps.sitofp (F := Ideal) .f32
      ((IntOp.cmpi .eq (iota .tc S128x128 32 [0] iota_S128x128_d0_w32 (ix2 i j))
        (iota .tc S128x128 32 [1] iota_S128x128_d1_w32 (ix2 i j))).setWidth 32) = _
  rw [iota_single_apply, iota_single_apply]
  show FloatOps.sitofp (F := Ideal) .f32
      ((IntOp.cmpi .eq (BitVec.ofNat 32 i.val) (BitVec.ofNat 32 j.val)).setWidth 32) = _
  rw [Cert.Basis.cmpi_eq_node]
  unfold Cert.Basis.eye
  by_cases h : i = j
  · rw [if_pos h, if_pos h]
    show ((((1#1 : BitVec 1).setWidth 32).toInt : ℝ) : EReal) = 1
    have e : ((1#1 : BitVec 1).setWidth 32).toInt = 1 := by decide
    rw [e]; simp
  · rw [if_neg h, if_neg h]
    show ((((0#1 : BitVec 1).setWidth 32).toInt : ℝ) : EReal) = 0
    have e : ((0#1 : BitVec 1).setWidth 32).toInt = 0 := by decide
    rw [e]; simp

theorem eye_at (i j : Fin 128) : (k0_pay5 (F := Ideal)) (ix3 i j (0 : Fin 1)) = Cert.Basis.eye i j := by
  unfold k0_pay5
  refine (shapeCast_ab_ab1_apply _ _ i j (0 : Fin 1)).trans ?_
  exact sel_at i j

theorem ne_at (i j : Fin 128) : (k0_pay6 (F := Ideal)) (ix3 i j (0 : Fin 1)) = Cert.Basis.ne i j := by
  unfold k0_pay6
  refine (shapeCast_ab_ab1_apply _ _ i j (0 : Fin 1)).trans ?_
  refine (subf_apply _ _ _).trans ?_
  show Ideal.ofBits .f32 0x3F800000#32 - (k0_pay4 (F := Ideal)) (ix2 i j) = Ideal.ofBits .f32 0x3F800000#32 - Cert.Basis.eye i j
  rw [sel_at]

/-! The reduced index with the summed coordinate put back. -/

private theorem lift_mid (i : Fin 128) (d : Fin 64) (k : Fin 128) :
    reduces_S128x128x64_S128x64.lift (ix2 i d) k = ix3 i k d := by
  funext a; match a with | ⟨0, _⟩ => rfl | ⟨1, _⟩ => rfl | ⟨2, _⟩ => rfl

private theorem lift_fst (i : Fin 128) (d : Fin 64) (k : Fin 128) :
    reduces_S128x128x64_S128x64_2.lift (ix2 i d) k = ix3 k i d := by
  funext a; match a with | ⟨0, _⟩ => rfl | ⟨1, _⟩ => rfl | ⟨2, _⟩ => rfl

private theorem lift_vec (d : Fin 64) (k : Fin 128) :
    reduces_S128x64_S64.lift (ix1 d) k = ix2 k d := by
  funext a; match a with | ⟨0, _⟩ => rfl | ⟨1, _⟩ => rfl

/-- The diagonal: the masked block times the selector, summed along a row. -/
private theorem dg_at (i : Fin 128) (d : Fin 64) :
    k0_pay7 (F := Ideal) x0 x1 (ix2 i d) = Cert.Basis.dg (aOf x0 x1) i d := by
  unfold k0_pay7
  refine (Ideal.multiReduction_add_single _ 0x00000000#32 reduces_S128x128x64_S128x64 _ _ (ix2 i d)).trans ?_
  show ∑ k : Fin 128, _ = _
  refine Eq.trans (Finset.sum_congr rfl fun k _ => ?_) (Cert.Basis.sum_mul_eye (fun k => aOf x0 x1 i k d) i)
  rw [lift_mid]
  refine (mulf_apply _ _ _).trans ?_
  congr 1
  · exact am_at x0 x1 i k d
  · refine (broadcastTo_ab1_abc_apply _ _ i k d).trans ?_
    exact eye_at i k

/-- A row's sum. -/
private theorem rowsum_at (i : Fin 128) (d : Fin 64) :
    multiReduction .add [1] S128x64 (k0_pay2 (F := Ideal) x0 x1) 0x00000000#32 reduces_S128x128x64_S128x64 (.inl rfl) rfl (ix2 i d)
      = ∑ k : Fin 128, aOf x0 x1 i k d := by
  refine (Ideal.multiReduction_add_single _ 0x00000000#32 reduces_S128x128x64_S128x64 _ _ (ix2 i d)).trans ?_
  show ∑ k : Fin 128, _ = _
  refine Finset.sum_congr rfl fun k _ => ?_
  rw [lift_mid]
  exact am_at x0 x1 i k d

/-- A column's sum. -/
private theorem colsum_at (i : Fin 128) (d : Fin 64) :
    multiReduction .add [0] S128x64 (k0_pay2 (F := Ideal) x0 x1) 0x00000000#32 reduces_S128x128x64_S128x64_2 (.inl rfl) rfl (ix2 i d)
      = ∑ k : Fin 128, aOf x0 x1 k i d := by
  refine (Ideal.multiReduction_add_single _ 0x00000000#32 reduces_S128x128x64_S128x64_2 _ _ (ix2 i d)).trans ?_
  show ∑ k : Fin 128, _ = _
  refine Finset.sum_congr rfl fun k _ => ?_
  rw [lift_fst]
  exact am_at x0 x1 k i d

private theorem row_at (i : Fin 128) (d : Fin 64) :
    k0_pay8 (F := Ideal) x0 x1 (ix2 i d) = Cert.Basis.row (aOf x0 x1) i d := by
  unfold k0_pay8
  refine (subf_apply _ _ _).trans ?_
  unfold Cert.Basis.row
  congr 1
  · exact rowsum_at x0 x1 i d
  · exact dg_at x0 x1 i d

private theorem col_at (i : Fin 128) (d : Fin 64) :
    k0_pay9 (F := Ideal) x0 x1 (ix2 i d) = Cert.Basis.col (aOf x0 x1) i d := by
  unfold k0_pay9
  refine (subf_apply _ _ _).trans ?_
  unfold Cert.Basis.col
  congr 1
  · exact colsum_at x0 x1 i d
  · exact dg_at x0 x1 i d

private theorem trv_at (d : Fin 64) :
    k0_pay10 (F := Ideal) x0 x1 (ix1 d) = Cert.Basis.tr (aOf x0 x1) d := by
  unfold k0_pay10
  refine (Ideal.multiReduction_add_single _ 0x00000000#32 reduces_S128x64_S64 _ _ (ix1 d)).trans ?_
  show ∑ k : Fin 128, _ = _
  unfold Cert.Basis.tr
  refine Finset.sum_congr rfl fun k _ => ?_
  rw [lift_vec]
  exact dg_at x0 x1 k d

theorem dgI_at (i : Fin 128) (d : Fin 64) :
    k0_pay15 (F := Ideal) x0 x1 (ix3 i (0 : Fin 1) d) = Cert.Basis.dg (aOf x0 x1) i d := by
  unfold k0_pay15
  exact (shapeCast_ab_a1b_apply _ _ i (0 : Fin 1) d).trans (dg_at x0 x1 i d)

theorem dgJ_at (j : Fin 128) (d : Fin 64) :
    k0_pay16 (F := Ideal) x0 x1 (ix3 (0 : Fin 1) j d) = Cert.Basis.dg (aOf x0 x1) j d := by
  unfold k0_pay16
  exact (shapeCast_ab_1ab_apply _ _ (0 : Fin 1) j d).trans (dg_at x0 x1 j d)

theorem rowI_at (i : Fin 128) (d : Fin 64) :
    k0_pay11 (F := Ideal) x0 x1 (ix3 i (0 : Fin 1) d) = Cert.Basis.row (aOf x0 x1) i d := by
  unfold k0_pay11
  exact (shapeCast_ab_a1b_apply _ _ i (0 : Fin 1) d).trans (row_at x0 x1 i d)

theorem rowJ_at (j : Fin 128) (d : Fin 64) :
    k0_pay12 (F := Ideal) x0 x1 (ix3 (0 : Fin 1) j d) = Cert.Basis.row (aOf x0 x1) j d := by
  unfold k0_pay12
  exact (shapeCast_ab_1ab_apply _ _ (0 : Fin 1) j d).trans (row_at x0 x1 j d)

theorem colI_at (i : Fin 128) (d : Fin 64) :
    k0_pay13 (F := Ideal) x0 x1 (ix3 i (0 : Fin 1) d) = Cert.Basis.col (aOf x0 x1) i d := by
  unfold k0_pay13
  exact (shapeCast_ab_a1b_apply _ _ i (0 : Fin 1) d).trans (col_at x0 x1 i d)

theorem colJ_at (j : Fin 128) (d : Fin 64) :
    k0_pay14 (F := Ideal) x0 x1 (ix3 (0 : Fin 1) j d) = Cert.Basis.col (aOf x0 x1) j d := by
  unfold k0_pay14
  exact (shapeCast_ab_1ab_apply _ _ (0 : Fin 1) j d).trans (col_at x0 x1 j d)

theorem tr_at (d : Fin 64) :
    k0_pay17 (F := Ideal) x0 x1 (ix3 (0 : Fin 1) (0 : Fin 1) d) = Cert.Basis.tr (aOf x0 x1) d := by
  unfold k0_pay17
  exact (shapeCast_a_11a_apply _ _ (0 : Fin 1) (0 : Fin 1) d).trans (trv_at x0 x1 d)

theorem os_at (d : Fin 64) :
    k0_pay18 (F := Ideal) x0 x1 (ix3 (0 : Fin 1) (0 : Fin 1) d) = Cert.Basis.os (aOf x0 x1) d := by
  unfold k0_pay18
  refine (shapeCast_a_11a_apply _ _ (0 : Fin 1) (0 : Fin 1) d).trans ?_
  refine (subf_apply _ _ _).trans ?_
  unfold Cert.Basis.os
  congr 1
  · refine (Ideal.multiReduction_add_single _ 0x00000000#32 reduces_S128x64_S64 _ _ (ix1 d)).trans ?_
    show ∑ k : Fin 128, _ = _
    unfold Cert.Basis.tot
    rw [Finset.sum_comm]
    refine Finset.sum_congr rfl fun k _ => ?_
    rw [lift_vec]
    exact colsum_at x0 x1 k d
  · exact trv_at x0 x1 d

end Cert.KernelIdeal.Block

end
-- ==== Proof.KernelPieces.lean ====
/-
  The fifteen arrays the kernel contracts with the weight rows, at an index, at the ideal instance: each is the
  corresponding basis array of the masked block.
-/
import proofs.«132667_j17351667876255_1_alg».proof.Proof.KernelBase

noncomputable section

namespace Cert.KernelIdeal.Block

open Cert.KernelIdeal Cert.KernelIdeal.Gen Idealize.ShloMosaic Idealize.ShloMosaic.ValueIdx

/-! ## Spreading an array along an axis of size one

An array with a unit axis, spread to the full shape, reads at an index the operand at that index with 0 on the unit
axis. -/

/-- An array over node pairs spread along the channels. -/
private theorem bc_ij1 (v : FVec Ideal S128x128x1 .f32) (h : S128x128x1.Broadcasts S128x128x64)
    (i j : Fin 128) (d : Fin 64) :
    broadcastTo S128x128x64 v h (ix3 i j d) = v (ix3 i j (0 : Fin 1)) :=
  broadcastTo_apply v h (ix3 i j d) (ix3 i j (0 : Fin 1)) fun a => match a with
    | ⟨0, _⟩ => rfl
    | ⟨1, _⟩ => rfl
    | ⟨2, _⟩ => rfl

/-- An array over (row node, channel) spread along the columns. -/
private theorem bc_i1d (v : FVec Ideal S128x1x64 .f32) (h : S128x1x64.Broadcasts S128x128x64)
    (i j : Fin 128) (d : Fin 64) :
    broadcastTo S128x128x64 v h (ix3 i j d) = v (ix3 i (0 : Fin 1) d) :=
  broadcastTo_apply v h (ix3 i j d) (ix3 i (0 : Fin 1) d) fun a => match a with
    | ⟨0, _⟩ => rfl
    | ⟨1, _⟩ => rfl
    | ⟨2, _⟩ => rfl

/-- An array over (column node, channel) spread along the rows. -/
private theorem bc_1jd (v : FVec Ideal S1x128x64 .f32) (h : S1x128x64.Broadcasts S128x128x64)
    (i j : Fin 128) (d : Fin 64) :
    broadcastTo S128x128x64 v h (ix3 i j d) = v (ix3 (0 : Fin 1) j d) :=
  broadcastTo_apply v h (ix3 i j d) (ix3 (0 : Fin 1) j d) fun a => match a with
    | ⟨0, _⟩ => rfl
    | ⟨1, _⟩ => rfl
    | ⟨2, _⟩ => rfl

/-- An array over the channels spread along the row nodes. -/
private theorem bc_11d (v : FVec Ideal S1x1x64 .f32) (h : S1x1x64.Broadcasts S128x1x64)
    (i : Fin 128) (d : Fin 64) :
    broadcastTo S128x1x64 v h (ix3 i (0 : Fin 1) d) = v (ix3 (0 : Fin 1) (0 : Fin 1) d) :=
  broadcastTo_apply v h (ix3 i (0 : Fin 1) d) (ix3 (0 : Fin 1) (0 : Fin 1) d) fun a => match a with
    | ⟨0, _⟩ => rfl
    | ⟨1, _⟩ => rfl
    | ⟨2, _⟩ => rfl

/-! ## The fifteen arrays -/

variable (x0 : Vec Ideal S1x128x128x64 .f32) (x1 : Vec Ideal S1x1x128 .f32) (i j : Fin 128) (d : Fin 64)

/-- a i j d · eye i j. -/
theorem piece0_at : k0_pay19 (F := Ideal) x0 x1 (ix3 i j d) = Cert.Basis.piece (aOf x0 x1) 0 i j d := by
  unfold k0_pay19
  rw [mulf_apply, bc_ij1, am_at, eye_at]
  rfl

/-- a i j d · ne i j. -/
theorem piece1_at : k0_pay20 (F := Ideal) x0 x1 (ix3 i j d) = Cert.Basis.piece (aOf x0 x1) 1 i j d := by
  unfold k0_pay20
  rw [mulf_apply, bc_ij1, am_at, ne_at]
  rfl

/-- a j i d · ne i j. -/
theorem piece2_at : k0_pay21 (F := Ideal) (k0_pay3 x0 x1) (k0_pay6 (F := Ideal)) (ix3 i j d)
    = Cert.Basis.piece (aOf x0 x1) 2 i j d := by
  unfold k0_pay21
  rw [mulf_apply, bc_ij1, amT_at, ne_at]
  rfl

/-- dg i d · ne i j. -/
theorem piece3_at : k0_pay22 (F := Ideal) (k0_pay6 (F := Ideal)) (k0_pay15 x0 x1) (ix3 i j d)
    = Cert.Basis.piece (aOf x0 x1) 3 i j d := by
  unfold k0_pay22
  rw [mulf_apply, bc_i1d, bc_ij1, dgI_at, ne_at]
  rfl

/-- dg j d · ne i j. -/
theorem piece4_at : k0_pay23 (F := Ideal) (k0_pay6 (F := Ideal)) (k0_pay16 x0 x1) (ix3 i j d)
    = Cert.Basis.piece (aOf x0 x1) 4 i j d := by
  unfold k0_pay23
  rw [mulf_apply, bc_1jd, bc_ij1, dgJ_at, ne_at]
  rfl

/-- row i d · eye i j. -/
theorem piece5_at : k0_pay24 (F := Ideal) (k0_pay5 (F := Ideal)) (k0_pay11 x0 x1) (ix3 i j d)
    = Cert.Basis.piece (aOf x0 x1) 5 i j d := by
  unfold k0_pay24
  rw [mulf_apply, bc_i1d, bc_ij1, rowI_at, eye_at]
  rfl

/-- col i d · eye i j. -/
theorem piece6_at : k0_pay25 (F := Ideal) (k0_pay5 (F := Ideal)) (k0_pay13 x0 x1) (ix3 i j d)
    = Cert.Basis.piece (aOf x0 x1) 6 i j d := by
  unfold k0_pay25
  rw [mulf_apply, bc_i1d, bc_ij1, colI_at, eye_at]
  rfl

/-- (row j d − a j i d) · ne i j. -/
theorem piece7_at : k0_pay26 (F := Ideal) (k0_pay3 x0 x1) (k0_pay6 (F := Ideal)) (k0_pay12 x0 x1) (ix3 i j d)
    = Cert.Basis.piece (aOf x0 x1) 7 i j d := by
  unfold k0_pay26
  rw [mulf_apply, subf_apply, bc_1jd, bc_ij1, rowJ_at, amT_at, ne_at]
  rfl

/-- (col i d − a j i d) · ne i j. -/
theorem piece8_at : k0_pay27 (F := Ideal) (k0_pay3 x0 x1) (k0_pay6 (F := Ideal)) (k0_pay13 x0 x1) (ix3 i j d)
    = Cert.Basis.piece (aOf x0 x1) 8 i j d := by
  unfold k0_pay27
  rw [mulf_apply, subf_apply, bc_i1d, bc_ij1, colI_at, amT_at, ne_at]
  rfl

/-- (col j d − a i j d) · ne i j. -/
theorem piece9_at : k0_pay28 (F := Ideal) (k0_pay2 x0 x1) (k0_pay6 (F := Ideal)) (k0_pay14 x0 x1) (ix3 i j d)
    = Cert.Basis.piece (aOf x0 x1) 9 i j d := by
  unfold k0_pay28
  rw [mulf_apply, subf_apply, bc_1jd, bc_ij1, colJ_at, am_at, ne_at]
  rfl

/-- (row i d − a i j d) · ne i j. -/
theorem piece10_at : k0_pay29 (F := Ideal) (k0_pay2 x0 x1) (k0_pay6 (F := Ideal)) (k0_pay11 x0 x1) (ix3 i j d)
    = Cert.Basis.piece (aOf x0 x1) 10 i j d := by
  unfold k0_pay29
  rw [mulf_apply, subf_apply, bc_i1d, bc_ij1, rowI_at, am_at, ne_at]
  rfl

/-- (tr d − dg i d) · eye i j. -/
theorem piece11_at : k0_pay30 (F := Ideal) (k0_pay5 (F := Ideal)) (k0_pay15 x0 x1) (k0_pay17 x0 x1) (ix3 i j d)
    = Cert.Basis.piece (aOf x0 x1) 11 i j d := by
  unfold k0_pay30
  rw [mulf_apply, bc_i1d, bc_ij1, subf_apply, bc_11d, tr_at, dgI_at, eye_at]
  rfl

/-- (os d − row i d − col i d) · eye i j. -/
theorem piece12_at :
    k0_pay31 (F := Ideal) (k0_pay5 (F := Ideal)) (k0_pay11 x0 x1) (k0_pay13 x0 x1) (k0_pay18 x0 x1) (ix3 i j d)
    = Cert.Basis.piece (aOf x0 x1) 12 i j d := by
  unfold k0_pay31
  rw [mulf_apply, bc_i1d, bc_ij1, subf_apply, subf_apply, bc_11d, os_at, rowI_at, colI_at, eye_at]
  rfl

/-- (tr d − dg i d − dg j d) · ne i j. -/
theorem piece13_at :
    k0_pay32 (F := Ideal) (k0_pay6 (F := Ideal)) (k0_pay15 x0 x1) (k0_pay16 x0 x1) (k0_pay17 x0 x1) (ix3 i j d)
    = Cert.Basis.piece (aOf x0 x1) 13 i j d := by
  unfold k0_pay32
  rw [mulf_apply, subf_apply, bc_i1d, bc_1jd, bc_ij1, subf_apply, bc_11d, tr_at, dgI_at, dgJ_at, ne_at]
  rfl

/-- (os d − row i d − row j d − col i d − col j d + a i j d + a j i d) · ne i j. -/
theorem piece14_at :
    k0_pay35 (F := Ideal)
      (k0_pay33 (k0_pay2 x0 x1) (k0_pay3 x0 x1) (k0_pay11 x0 x1) (k0_pay12 x0 x1) (k0_pay13 x0 x1) (k0_pay14 x0 x1)
        (k0_pay18 x0 x1))
      (k0_pay34 (k0_pay6 (F := Ideal))) (ix3 i j d)
    = Cert.Basis.piece (aOf x0 x1) 14 i j d := by
  unfold k0_pay35 k0_pay34 k0_pay33
  rw [mulf_apply, addf_apply, addf_apply, subf_apply, subf_apply, subf_apply, bc_i1d, bc_1jd, bc_i1d, bc_1jd, bc_ij1,
    subf_apply, bc_11d, os_at, rowI_at, rowJ_at, colI_at, colJ_at, am_at, amT_at, ne_at]
  rfl

end Cert.KernelIdeal.Block

end
-- ==== Proof.KernelBlock.lean ====
/-
  What the kernel body leaves in its output block, at an index, at the ideal instance: the fifteen basis arrays of the
  masked block, each contracted with its own 64 rows of the weight matrix, added one after the other onto zero.
-/
import proofs.«132667_j17351667876255_1_alg».proof.Proof.Gen.KernelIdeal.Frame
import proofs.«132667_j17351667876255_1_alg».proof.Proof.KernelPieces

noncomputable section

namespace Cert.KernelIdeal.Block

open Cert.KernelIdeal Cert.KernelIdeal.Gen Idealize.ShloMosaic Idealize.ShloMosaic.ValueIdx

/-- The dimension numbers of every contraction of the body: 16384 × 64 times 64 × 64. -/
private abbrev dotD := dot_S16384x64_S64x64_S16384x64_1_0_0_1_n_n

/-- The contraction's operand indices: the left operand is read at (row, channel), the right at (channel, output channel). -/
private theorem lhs_ax0 (y : S16384x64.Idx) (q : dotD.contr.Idx) : (dotD.lhsIdx y q 0).val = (y 0).val := by
  unfold DotDims.lhsIdx
  rw [dif_neg (show ¬(0 : Fin S16384x64.rank) ∈ dotD.lhsBatch by decide),
    dif_pos (show (0 : Fin S16384x64.rank) ∈ dotD.lhsNonContracting by decide)]
  rfl

private theorem lhs_ax1 (y : S16384x64.Idx) (q : dotD.contr.Idx) :
    (dotD.lhsIdx y q 1).val = (q ⟨0, by decide⟩).val :=
  dotD.lhsIdx_val_of_single rfl y q

private theorem rhs_ax0 (y : S16384x64.Idx) (q : dotD.contr.Idx) :
    (dotD.rhsIdx y q 0).val = (q ⟨0, by decide⟩).val :=
  dotD.rhsIdx_val_of_single rfl y q

private theorem rhs_ax1 (y : S16384x64.Idx) (q : dotD.contr.Idx) : (dotD.rhsIdx y q 1).val = (y 1).val := by
  unfold DotDims.rhsIdx
  rw [dif_neg (show ¬(1 : Fin S64x64.rank) ∈ dotD.rhsBatch by decide),
    dif_pos (show (1 : Fin S64x64.rank) ∈ dotD.rhsNonContracting by decide)]
  rfl

/-- The row-major position of a pair of nodes among the 16384 rows. -/
private abbrev rowOf (i j : Fin 128) : Fin 16384 := ⟨i.val * 128 + j.val, by have := i.isLt; have := j.isLt; omega⟩

/-- One contraction: a 128 × 128 × 64 array, its node pairs laid out as 16384 rows, times a 64 × 64 block of weights,
    read back at a node pair and an output channel, is the sum over the 64 channels of the products. -/
private theorem step_at (T : FVec Ideal S128x128x64 .f32) (W : Vec Ideal S64x64 .f32) (i j : Fin 128) (o : Fin 64) :
    shapeCast S128x128x64
        (matmul dot_S16384x64_S64x64_S16384x64_1_0_0_1_n_n none
          (truncf .bf16 (shapeCast S16384x64 T shapeCasts_S128x128x64_S16384x64) bitsLt_bf16_f32)
          (truncf .bf16 W bitsLt_bf16_f32) (constant S16384x64 .f32 0x00000000#32))
        shapeCasts_S16384x64_S128x128x64 (ix3 i j o)
      = ∑ d : Fin 64, T (ix3 i j d) * W (ix2 d o) := by
  refine (shapeCast_apply _ shapeCasts_S16384x64_S128x128x64 (ix3 i j o) (ix2 (rowOf i j) o) (by
    rw [Shape.rowMajor_val_two, Shape.rowMajor_val_three]; rfl)).trans ?_
  simp only [matmul]
  rw [Ideal.matmul_constant_zero_apply, ← Equiv.sum_comp (contrEquiv1 dotD 64 rfl rfl).symm]
  refine Finset.sum_congr rfl fun d _ => ?_
  have hd := contrEquiv1_symm_val dotD 64 rfl rfl d
  have el : dotD.lhsIdx (ix2 (rowOf i j) o) ((contrEquiv1 dotD 64 rfl rfl).symm d) = ix2 (rowOf i j) d :=
    funext fun a => Fin.ext (by
      match a with
      | ⟨0, _⟩ => exact lhs_ax0 _ _
      | ⟨1, _⟩ => exact (lhs_ax1 _ _).trans hd)
  have er : dotD.rhsIdx (ix2 (rowOf i j) o) ((contrEquiv1 dotD 64 rfl rfl).symm d) = ix2 d o :=
    funext fun a => Fin.ext (by
      match a with
      | ⟨0, _⟩ => exact (rhs_ax0 _ _).trans hd
      | ⟨1, _⟩ => exact rhs_ax1 _ _)
  rw [el, er, truncf_apply, truncf_apply]
  refine congrArg (· * W (ix2 d o)) ?_
  exact shapeCast_apply T shapeCasts_S128x128x64_S16384x64 (ix2 (rowOf i j) d) (ix3 i j d) (by
    rw [Shape.rowMajor_val_three, Shape.rowMajor_val_two]; rfl)

/-- A 64 × 64 block of the weight matrix read from row offset 64 k is piece k's own block of rows. -/
private theorem wld_at (x2 : Vec Ideal S960x64 .f32) (off : Nat) (k : Fin 15) (hk : off = 64 * k.val)
    (inb : ∀ a, (![off, 0] : Fin 2 → Nat) a + S64x64.size a ≤ S960x64.size a) (d o : Fin 64) :
    View.ld x2 (Rect.unit (s := S960x64) ![off, 0] S64x64.size inb) (ix2 d o) = x2 (ix2 (Cert.Basis.wrow k d) o) := by
  show x2 ((Rect.unit (s := S960x64) ![off, 0] S64x64.size inb).emb (ix2 d o)) = _
  refine congrArg x2 (funext fun a => Fin.ext ?_)
  match a with
  | ⟨0, _⟩ =>
    show off + 1 * d.val = 64 * k.val + d.val
    omega
  | ⟨1, _⟩ =>
    show 0 + 1 * o.val = o.val
    omega

/-- The first five contractions, accumulated onto zero. -/
private theorem pay36_at (v42 v44 v46 v49 v52 : FVec Ideal S128x128x64 .f32) (w0 w1 w2 w3 w4 : Vec Ideal S64x64 .f32)
    (i j : Fin 128) (o : Fin 64) :
    k0_pay36 v42 v44 v46 v49 v52 w0 w1 w2 w3 w4 (ix3 i j o)
      = (((((0 + ∑ d : Fin 64, v42 (ix3 i j d) * w0 (ix2 d o)) + ∑ d : Fin 64, v44 (ix3 i j d) * w1 (ix2 d o))
          + ∑ d : Fin 64, v46 (ix3 i j d) * w2 (ix2 d o)) + ∑ d : Fin 64, v49 (ix3 i j d) * w3 (ix2 d o))
          + ∑ d : Fin 64, v52 (ix3 i j d) * w4 (ix2 d o)) := by
  unfold k0_pay36
  simp only [addf_apply, step_at, broadcast_apply, Ideal.ofBits_def, Ideal.ofBits_zero_f32]

/-- The next six contractions, accumulated onto what the first five left. -/
private theorem pay39_at (v58 v62 v66 v70 v74 v141 t5 : FVec Ideal S128x128x64 .f32) (w5 w6 w7 w8 w9 w10 : Vec Ideal S64x64 .f32)
    (i j : Fin 128) (o : Fin 64) :
    k0_pay39 v58 v62 v66 v70 v74 v141 (k0_pay37 t5) (k0_pay38 w5) (constant S16384x64 .f32 0x00000000#32) w6 w7 w8 w9 w10
        (ix3 i j o)
      = ((((((v141 (ix3 i j o) + ∑ d : Fin 64, t5 (ix3 i j d) * w5 (ix2 d o))
          + ∑ d : Fin 64, v58 (ix3 i j d) * w6 (ix2 d o)) + ∑ d : Fin 64, v62 (ix3 i j d) * w7 (ix2 d o))
          + ∑ d : Fin 64, v66 (ix3 i j d) * w8 (ix2 d o)) + ∑ d : Fin 64, v70 (ix3 i j d) * w9 (ix2 d o))
          + ∑ d : Fin 64, v74 (ix3 i j d) * w10 (ix2 d o)) := by
  unfold k0_pay39 k0_pay37 k0_pay38
  simp only [addf_apply, step_at]

/-- The last four contractions, accumulated onto what the first eleven left, and the leading unit axis put back. -/
private theorem pay1_at (v85 v92 v105 v183 t11 : FVec Ideal S128x128x64 .f32) (w11 w12 w13 w14 : Vec Ideal S64x64 .f32)
    (i j : Fin 128) (o : Fin 64) :
    k0_pay1 v85 v92 v105 v183 (k0_pay40 t11) (k0_pay41 w11) (constant S16384x64 .f32 0x00000000#32) w12 w13 w14
        (ix4 (0 : Fin 1) i j o)
      = ((((v183 (ix3 i j o) + ∑ d : Fin 64, t11 (ix3 i j d) * w11 (ix2 d o))
          + ∑ d : Fin 64, v85 (ix3 i j d) * w12 (ix2 d o)) + ∑ d : Fin 64, v92 (ix3 i j d) * w13 (ix2 d o))
          + ∑ d : Fin 64, v105 (ix3 i j d) * w14 (ix2 d o)) := by
  unfold k0_pay1 k0_pay40 k0_pay41
  simp only [shapeCast_abc_1abc_apply, addf_apply, step_at]

theorem out_block (x0 : Vec Ideal S1x128x128x64 .f32) (x1 : Vec Ideal S1x1x128 .f32) (x2 : Vec Ideal S960x64 .f32)
    (i j : Fin 128) (o : Fin 64) :
    out0_3 (F := Ideal) x0 x1 x2 (ix4 (0 : Fin 1) i j o)
      = Cert.Basis.outAcc (aOf x0 x1) (fun K o => x2 (ix2 K o)) i j o := by
  have hz4 : (![0, 0, 0, 0] : Fin 4 → Nat) = fun _ => 0 := by
    funext a
    match a with
    | ⟨0, _⟩ => rfl
    | ⟨1, _⟩ => rfl
    | ⟨2, _⟩ => rfl
    | ⟨3, _⟩ => rfl
  have hz3 : (![0, 0, 0] : Fin 3 → Nat) = fun _ => 0 := by
    funext a
    match a with
    | ⟨0, _⟩ => rfl
    | ⟨1, _⟩ => rfl
    | ⟨2, _⟩ => rfl
  have e0 : View.ld x0 r0_0 = x0 := View.ld_unit_zero hz4 _ x0
  have e1 : View.ld x1 r0_1 = x1 := View.ld_unit_zero hz3 _ x1
  have w0 : ∀ d, View.ld x2 r0_2 (ix2 d o) = x2 (ix2 (Cert.Basis.wrow 0 d) o) := fun d => wld_at x2 0 0 rfl _ d o
  have w1 : ∀ d, View.ld x2 r0_3 (ix2 d o) = x2 (ix2 (Cert.Basis.wrow 1 d) o) := fun d => wld_at x2 64 1 rfl _ d o
  have w2 : ∀ d, View.ld x2 r0_4 (ix2 d o) = x2 (ix2 (Cert.Basis.wrow 2 d) o) := fun d => wld_at x2 128 2 rfl _ d o
  have w3 : ∀ d, View.ld x2 r0_5 (ix2 d o) = x2 (ix2 (Cert.Basis.wrow 3 d) o) := fun d => wld_at x2 192 3 rfl _ d o
  have w4 : ∀ d, View.ld x2 r0_6 (ix2 d o) = x2 (ix2 (Cert.Basis.wrow 4 d) o) := fun d => wld_at x2 256 4 rfl _ d o
  have w5 : ∀ d, View.ld x2 r0_7 (ix2 d o) = x2 (ix2 (Cert.Basis.wrow 5 d) o) := fun d => wld_at x2 320 5 rfl _ d o
  have w6 : ∀ d, View.ld x2 r0_8 (ix2 d o) = x2 (ix2 (Cert.Basis.wrow 6 d) o) := fun d => wld_at x2 384 6 rfl _ d o
  have w7 : ∀ d, View.ld x2 r0_9 (ix2 d o) = x2 (ix2 (Cert.Basis.wrow 7 d) o) := fun d => wld_at x2 448 7 rfl _ d o
  have w8 : ∀ d, View.ld x2 r0_10 (ix2 d o) = x2 (ix2 (Cert.Basis.wrow 8 d) o) := fun d => wld_at x2 512 8 rfl _ d o
  have w9 : ∀ d, View.ld x2 r0_11 (ix2 d o) = x2 (ix2 (Cert.Basis.wrow 9 d) o) := fun d => wld_at x2 576 9 rfl _ d o
  have w10 : ∀ d, View.ld x2 r0_12 (ix2 d o) = x2 (ix2 (Cert.Basis.wrow 10 d) o) := fun d => wld_at x2 640 10 rfl _ d o
  have w11 : ∀ d, View.ld x2 r0_13 (ix2 d o) = x2 (ix2 (Cert.Basis.wrow 11 d) o) := fun d => wld_at x2 704 11 rfl _ d o
  have w12 : ∀ d, View.ld x2 r0_14 (ix2 d o) = x2 (ix2 (Cert.Basis.wrow 12 d) o) := fun d => wld_at x2 768 12 rfl _ d o
  have w13 : ∀ d, View.ld x2 r0_15 (ix2 d o) = x2 (ix2 (Cert.Basis.wrow 13 d) o) := fun d => wld_at x2 832 13 rfl _ d o
  have w14 : ∀ d, View.ld x2 r0_16 (ix2 d o) = x2 (ix2 (Cert.Basis.wrow 14 d) o) := fun d => wld_at x2 896 14 rfl _ d o
  unfold out0_3
  rw [View.canon_unit_zero hz4, e0, e1, pay1_at, pay39_at, pay36_at]
  simp only [w0, w1, w2, w3, w4, w5, w6, w7, w8, w9, w10, w11, w12, w13, w14, piece0_at, piece1_at, piece2_at, piece3_at,
    piece4_at, piece5_at, piece6_at, piece7_at, piece8_at, piece9_at, piece10_at, piece11_at, piece12_at, piece13_at,
    piece14_at]
  rfl

end Cert.KernelIdeal.Block

end
-- ==== Proof.Whole.lean ====
/-
  The layer's whole result as one function of the three argument arrays: at (b, i, j, o) the output of the layer
  for batch element b, whose mask is the boolean mask read as 0 / 1.
-/
import proofs.«132667_j17351667876255_1_alg».proof.Proof.Spec

noncomputable section

namespace Cert.Basis

open Idealize.ShloMosaic Idealize.ShloMosaic.ValueIdx

abbrev SA : Shape := ⟨4, ![8, 128, 128, 64]⟩
abbrev SX : Shape := ⟨2, ![8, 128]⟩
abbrev SW : Shape := ⟨2, ![960, 64]⟩

/-- The result array of the layer. -/
def whole (A : FVec Ideal SA .f32) (X : IVec SX 1) (W : FVec Ideal SW .f32) : FVec Ideal SA .f32 := fun y =>
  out (am (fun i j d => A (ix4 (⟨(y 0).val, (y 0).isLt⟩ : Fin 8) i j d))
      (fun i => FloatOps.uitofp (F := Ideal) .f32 (X (ix2 (⟨(y 0).val, (y 0).isLt⟩ : Fin 8) i))))
    (fun K o => W (ix2 K o)) ⟨(y 1).val, (y 1).isLt⟩ ⟨(y 2).val, (y 2).isLt⟩ ⟨(y 3).val, (y 3).isLt⟩

end Cert.Basis

end
-- ==== Proof.KernelArray.lean ====
/-
  From blocks to the array.  The grid has one point per batch element; point t stages batch element t of the
  input array and of the mask (and the whole weight matrix) and writes batch element t of the output.  So the
  output array after the run is, index by index, the layer's output computed from the batch element's own slice.
-/
import proofs.«132667_j17351667876255_1_alg».proof.Proof.Gen.KernelIdeal.Value
import proofs.«132667_j17351667876255_1_alg».proof.Proof.KernelBlock
import proofs.«132667_j17351667876255_1_alg».proof.Proof.Whole
import Idealize.ShloMosaic.Lib.Pipeline.Value
import Idealize.ShloMosaic.Lib.StableHlo.Run

set_option maxRecDepth 16384

noncomputable section

namespace Cert.KernelIdeal.Arr

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-- The coordinates of an index of the output array: batch element, the two nodes, the output channel. -/
abbrev cb (y : S8x128x128x64.Idx) : Fin 8 := ⟨(y 0).val, (y 0).isLt⟩
abbrev ci (y : S8x128x128x64.Idx) : Fin 128 := ⟨(y 1).val, (y 1).isLt⟩
abbrev cj (y : S8x128x128x64.Idx) : Fin 128 := ⟨(y 2).val, (y 2).isLt⟩
abbrev co (y : S8x128x128x64.Idx) : Fin 64 := ⟨(y 3).val, (y 3).isLt⟩

/-- The output array as one function of the input array, the float mask laid out [8, 1, 128] and the weight matrix:
    at (b, i, j, o) the layer's output for batch element b. -/
def G (A : FVec Ideal S8x128x128x64 .f32) (M : FVec Ideal S8x1x128 .f32) (W : FVec Ideal S960x64 .f32) :
    FVec Ideal S8x128x128x64 .f32 := fun y =>
  Cert.Basis.out (Cert.Basis.am (fun i j d => A (ix4 (cb y) i j d)) (fun i => M (ix3 (cb y) (0 : Fin 1) i)))
    (fun K o => W (ix2 K o)) (ci y) (cj y) (co y)

/-- The printed index maps over the eight grid points: every window but the weights' moves along the batch axis with
    the point, and no window moves along any other axis. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0
    ∧ win0_3.index t (3 : Fin 4) = 0 :=
  (by decide +kernel : ∀ t : Fin grid0.N, _)

/-- The grid point as a batch element. -/
abbrev pt (t : Fin cfg0.N) : Fin 8 := ⟨t.val, t.isLt⟩

/-- Point t's block of the input array is batch element t. -/
theorem blk0_at (c : Dev nD) (t : Fin cfg0.N) (i j : Fin 128) (d : Fin 64) :
    iblk m c 0 t (ix4 (0 : Fin 1) i j d) = V m c main_arg0 (ix4 (pt t) i j d) := by
  obtain ⟨e0, e1, e2, e3, -⟩ := idx_facts t
  show V m c main_arg0 (((cfg0.win 0).blk t).view.emb (ix4 (0 : Fin 1) i j d)) = _
  refine congrArg (V m c main_arg0) ?_
  funext a; apply Fin.ext
  match a with
  | ⟨0, _⟩ => show win0_0.index t (0 : Fin 4) * 1 + 1 * 0 = t.val; omega
  | ⟨1, _⟩ => show win0_0.index t (1 : Fin 4) * 128 + 1 * i.val = i.val; omega
  | ⟨2, _⟩ => show win0_0.index t (2 : Fin 4) * 128 + 1 * j.val = j.val; omega
  | ⟨3, _⟩ => show win0_0.index t (3 : Fin 4) * 64 + 1 * d.val = d.val; omega

/-- Point t's block of the float mask is batch element t's row. -/
theorem blk1_at (c : Dev nD) (t : Fin cfg0.N) (i : Fin 128) :
    iblk m c 1 t (ix3 (0 : Fin 1) (0 : Fin 1) i) = V m c main_v1 (ix3 (pt t) (0 : Fin 1) i) := by
  obtain ⟨-, -, -, -, e0, e1, e2, -⟩ := idx_facts t
  show V m c main_v1 (((cfg0.win 1).blk t).view.emb (ix3 (0 : Fin 1) (0 : Fin 1) i)) = _
  refine congrArg (V m c main_v1) ?_
  funext a; apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 128 + 1 * i.val = i.val; omega

/-- Every point's block of the weight matrix is the whole matrix. -/
theorem blk2_at (c : Dev nD) (t : Fin cfg0.N) (K : Fin 960) (o : Fin 64) :
    iblk m c 2 t (ix2 K o) = V m c main_arg2 (ix2 K o) := by
  obtain ⟨-, -, -, -, -, -, -, e0, e1, -⟩ := idx_facts t
  show V m c main_arg2 (((cfg0.win 2).blk t).view.emb (ix2 K o)) = _
  refine congrArg (V m c main_arg2) ?_
  funext a; apply Fin.ext
  match a with
  | ⟨0, _⟩ => show win0_2.index t (0 : Fin 2) * 960 + 1 * K.val = K.val; omega
  | ⟨1, _⟩ => show win0_2.index t (1 : Fin 2) * 64 + 1 * o.val = o.val; omega

/-- The body's block at any index of the block, from the index's own coordinates. -/
theorem out_block_idx (x0 : Vec Ideal S1x128x128x64 .f32) (x1 : Vec Ideal S1x1x128 .f32) (x2 : Vec Ideal S960x64 .f32)
    (y : S1x128x128x64.Idx) :
    out0_3 (F := Ideal) x0 x1 x2 y
      = Cert.Basis.outAcc (Cert.KernelIdeal.Block.aOf x0 x1) (fun K o => x2 (ix2 K o))
          ⟨(y 1).val, (y 1).isLt⟩ ⟨(y 2).val, (y 2).isLt⟩ ⟨(y 3).val, (y 3).isLt⟩ := by
  have hy : y = ix4 (0 : Fin 1) (⟨(y 1).val, (y 1).isLt⟩ : Fin 128) (⟨(y 2).val, (y 2).isLt⟩ : Fin 128)
      (⟨(y 3).val, (y 3).isLt⟩ : Fin 64) := by
    funext a
    match a with
    | ⟨0, _⟩ => exact Fin.ext (by have h : (y 0).val < 1 := (y 0).isLt; show (y 0).val = 0; omega)
    | ⟨1, _⟩ => rfl
    | ⟨2, _⟩ => rfl
    | ⟨3, _⟩ => rfl
  obtain ⟨p, q, r, rfl⟩ : ∃ (p q : Fin 128) (r : Fin 64), y = ix4 (0 : Fin 1) p q r := ⟨_, _, _, hy⟩
  exact Cert.KernelIdeal.Block.out_block x0 x1 x2 p q r

/-- What point t writes back is block t of G of the arrays as the region finds them. -/
theorem flushed_eq (c : Dev nD) (t : Fin cfg0.N) :
    (dats m 0 c).flushed 3 t
      = ((cfg0.win 3).blk t).view.read (Elt Ideal) (G (V m c main_arg0) (V m c main_v1) (V m c main_arg2)) := by
  rw [Value.flushed3]
  obtain ⟨-, -, -, -, -, -, -, -, -, e0, e1, e2, e3⟩ := idx_facts t
  funext y
  show out0_3 (iblk m c 0 t) (iblk m c 1 t) (iblk m c 2 t) y
    = G (V m c main_arg0) (V m c main_v1) (V m c main_arg2) (((cfg0.win 3).blk t).view.emb y)
  refine (out_block_idx _ _ _ y).trans ?_
  rw [← Cert.Basis.out_eq_outAcc]
  have hb : cb (((cfg0.win 3).blk t).view.emb y) = pt t := Fin.ext (by
    show win0_3.index t (0 : Fin 4) * 1 + 1 * (y 0).val = t.val
    have h : (y 0).val < 1 := (y 0).isLt
    omega)
  have hi : ci (((cfg0.win 3).blk t).view.emb y) = ⟨(y 1).val, (y 1).isLt⟩ := Fin.ext (by
    show win0_3.index t (1 : Fin 4) * 128 + 1 * (y 1).val = (y 1).val; omega)
  have hj : cj (((cfg0.win 3).blk t).view.emb y) = ⟨(y 2).val, (y 2).isLt⟩ := Fin.ext (by
    show win0_3.index t (2 : Fin 4) * 128 + 1 * (y 2).val = (y 2).val; omega)
  have ho : co (((cfg0.win 3).blk t).view.emb y) = ⟨(y 3).val, (y 3).isLt⟩ := Fin.ext (by
    show win0_3.index t (3 : Fin 4) * 64 + 1 * (y 3).val = (y 3).val; omega)
  unfold G
  rw [hb, hi, hj, ho]
  have ha : Cert.KernelIdeal.Block.aOf (iblk m c 0 t) (iblk m c 1 t)
      = Cert.Basis.am (fun i j d => V m c main_arg0 (ix4 (pt t) i j d)) (fun i => V m c main_v1 (ix3 (pt t) (0 : Fin 1) i)) := by
    show Cert.Basis.am _ _ = _
    congr 1
    · funext i j d; exact blk0_at m c t i j d
    · funext i; exact blk1_at m c t i
  have hw : (fun (K : Fin 960) (o : Fin 64) => iblk m c 2 t (ix2 K o)) = fun K o => V m c main_arg2 (ix2 K o) := by
    funext K o; exact blk2_at m c t K o
  rw [ha, hw]

/-- An index of the array is in point t's block iff each coordinate is in the block's range on its axis. -/
theorem mem_blk (t : Fin cfg0.N) (i : S8x128x128x64.Idx) :
    i ∈ ((cfg0.win 3).blk t).view.set ↔ ∀ a : Fin 4, win0_3.index t a * S1x128x128x64.size a ≤ (i a).val
      ∧ (i a).val < win0_3.index t a * S1x128x128x64.size a + S1x128x128x64.size a := by
  show i ∈ ((View.whole main_v2).slice (win0_3.rect t)).set ↔ _
  rw [View.set_slice_whole, Rect.mem_set_unit]
  exact Iff.rfl

/-- Every index of the output array lies in the block of the point that is its batch element. -/
theorem cover (i : S8x128x128x64.Idx) : ∃ t : Fin cfg0.N, (cfg0.win 3).flush t = true ∧ i ∈ ((cfg0.win 3).blk t).view.set := by
  refine ⟨⟨(i 0).val, (i 0).isLt⟩, flush0_3 _, ?_⟩
  obtain ⟨-, -, -, -, -, -, -, -, -, e0, e1, e2, e3⟩ := idx_facts ⟨(i 0).val, (i 0).isLt⟩
  rw [mem_blk]
  intro a
  match a with
  | ⟨0, _⟩ =>
    show win0_3.index _ (0 : Fin 4) * 1 ≤ (i 0).val ∧ (i 0).val < win0_3.index _ (0 : Fin 4) * 1 + 1
    rw [e0]; constructor <;> simp
  | ⟨1, _⟩ =>
    show win0_3.index _ (1 : Fin 4) * 128 ≤ (i 1).val ∧ (i 1).val < win0_3.index _ (1 : Fin 4) * 128 + 128
    have h : (i 1).val < 128 := (i 1).isLt
    rw [e1]; omega
  | ⟨2, _⟩ =>
    show win0_3.index _ (2 : Fin 4) * 128 ≤ (i 2).val ∧ (i 2).val < win0_3.index _ (2 : Fin 4) * 128 + 128
    have h : (i 2).val < 128 := (i 2).isLt
    rw [e2]; omega
  | ⟨3, _⟩ =>
    show win0_3.index _ (3 : Fin 4) * 64 ≤ (i 3).val ∧ (i 3).val < win0_3.index _ (3 : Fin 4) * 64 + 64
    have h : (i 3).val < 64 := (i 3).isLt
    rw [e3]; omega

/-- The output array after the run is G of the arrays as the region finds them. -/
theorem final (c : Dev nD) :
    (dats m 0 c).arrAt 3 cfg0.N = G (V m c main_arg0) (V m c main_v1) (V m c main_arg2) :=
  (dats m 0 c).arrAt_eq_of_cover 3 _ (fun t _ => flushed_eq m c t) cover

/-- The float mask the region finds: the boolean mask read as 0 / 1 and laid out [8, 1, 128] by the two host
    operations before the region. -/
theorem V_mask (c : Dev nD) :
    (V m c main_v1 : S8x1x128.Idx → EReal)
      = broadcastInDim S8x1x128 ![0, 2] bcast_S8x128_S8x1x128_0_2
          (uitofp (F := Ideal) .f32 (m ((c : Thread nD τ).loc main_arg1))) := by
  dsimp only [Gen.V, Gen.hostOps0]; after_results

/-- Entry (b, 0, i) of that mask is node i's flag of batch element b, as 0 / 1. -/
theorem V_mask_at (c : Dev nD) (b : Fin 8) (i : Fin 128) :
    V m c main_v1 (ix3 b (0 : Fin 1) i)
      = FloatOps.uitofp (F := Ideal) .f32 (m ((c : Thread nD τ).loc main_arg1) (ix2 b i)) := by
  rw [V_mask]
  exact broadcastInDim_apply _ bcast_S8x128_S8x1x128_0_2 _ (ix3 b (0 : Fin 1) i) (ix2 b i) (fun a => match a with
    | ⟨0, _⟩ => by show b.val = if (8 : Nat) = 1 then 0 else b.val; rw [if_neg (by decide)]
    | ⟨1, _⟩ => by show i.val = if (128 : Nat) = 1 then 0 else i.val; rw [if_neg (by decide)])

/-- So the output array after the run is the layer's whole result of the three argument arrays. -/
theorem final_whole (c : Dev nD) :
    (dats m 0 c).arrAt 3 cfg0.N
      = Cert.Basis.whole (m ((c : Thread nD τ).loc main_arg0)) (m ((c : Thread nD τ).loc main_arg1))
          (m ((c : Thread nD τ).loc main_arg2)) := by
  rw [final]
  funext y
  unfold G Cert.Basis.whole
  have hm : (fun i : Fin 128 => V m c main_v1 (ix3 (cb y) (0 : Fin 1) i))
      = fun i => FloatOps.uitofp (F := Ideal) .f32 (m ((c : Thread nD τ).loc main_arg1) (ix2 (cb y) i)) := by
    funext i; exact V_mask_at m c (cb y) i
  rw [hm, V_main_arg0, V_main_arg2]

/-- The kernel's run: every weakly fair execution ends with the result array at the layer's whole result of the
    arguments, and the arguments as they were. -/
theorem run : θ_run defs (onTc (τ := τ) (main (F := Ideal))) ⟨m, fun _ => 0, ρ⟩ fun r => ∀ c : Dev nD,
      r.2.mem ((c : Thread nD τ).loc main_v2)
        = Cert.Basis.whole (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_whole m c), (h c).2⟩) (Value.run_blocks m ρ)

end Cert.KernelIdeal.Arr

end
-- ==== Proof.RefBase.lean ====
/-
  The reference's base quantities at an index, at the ideal instance: the masked array, its transpose over the node
  axes, the diagonal selector and its complement, the diagonal (a select-then-sum), the off-diagonal row and column
  sums, the trace and the off-diagonal total.
-/
import proofs.«132667_j17351667876255_1_alg».proof.Proof.Gen.ReferenceIdeal.Read
import proofs.«132667_j17351667876255_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The masked array of batch element b. -/
abbrev aRef (x0 : (⟨S8x128x128x64, .f32⟩ : BufTy).Contents (Elt Ideal)) (x1 : (⟨S8x128, .i1⟩ : BufTy).Contents (Elt Ideal))
    (b : Fin 8) : Fin 128 → Fin 128 → Fin 64 → EReal :=
  Cert.Basis.am (fun i j d => x0 (ix4 b i j d)) (fun i => FloatOps.uitofp (F := Ideal) .f32 (x1 (ix2 b i)))

variable (x0 : (⟨S8x128x128x64, .f32⟩ : BufTy).Contents (Elt Ideal)) (x1 : (⟨S8x128, .i1⟩ : BufTy).Contents (Elt Ideal))
variable (b : Fin 8)

theorem am_at (i j : Fin 128) (d : Fin 64) : val_main_v8 (F := Ideal) x0 x1 (ix4 b i j d) = aRef x0 x1 b i j d := by
  simp only [val_main_v8_apply, val_main_v7_apply, val_main_v6_apply, val_main_v5_apply, val_main_v3_apply, val_main_v4_apply,
    val_main_v1_apply, val_main_v2_apply, val_main_v0_apply]
  have h1 : idx_main_v1 (idx_main_v3 (idx_main_v6 (idx_main_v7 (ix4 b i j d)))) = ix2 b i := by
    funext a; match a with | ⟨0, _⟩ => rfl | ⟨1, _⟩ => rfl
  have h2 : idx_main_v2 (idx_main_v4 (idx_main_v6 (idx_main_v7 (ix4 b i j d)))) = ix2 b j := by
    funext a; match a with | ⟨0, _⟩ => rfl | ⟨1, _⟩ => rfl
  rw [h1, h2]
  rfl

theorem amT_at (i j : Fin 128) (d : Fin 64) : val_main_v9 (F := Ideal) x0 x1 (ix4 b i j d) = aRef x0 x1 b j i d := by
  rw [val_main_v9_apply]
  have h : idx_main_v9 (ix4 b i j d) = ix4 b j i d := by
    funext a; match a with | ⟨0, _⟩ => rfl | ⟨1, _⟩ => rfl | ⟨2, _⟩ => rfl | ⟨3, _⟩ => rfl
  rw [h]
  exact am_at x0 x1 b j i d

/-- The selector's word: node numbers compared as 32-bit words, read as a float. -/
private theorem sel_word (i j : Fin 128) :
    FloatOps.uitofp (F := Ideal) .f32 (IntOp.cmpi .eq (IntOp.addi (BitVec.ofNat 32 i.val) 0#32) (BitVec.ofNat 32 j.val))
      = Cert.Basis.eye i j := by
  have h0 : IntOp.addi (BitVec.ofNat 32 i.val) 0#32 = BitVec.ofNat 32 i.val := BitVec.add_zero _
  rw [h0, Cert.Basis.cmpi_eq_node]
  unfold Cert.Basis.eye
  by_cases h : i = j
  · rw [if_pos h, if_pos h]
    show (((1#1 : BitVec 1).toNat : ℝ) : EReal) = 1
    simp
  · rw [if_neg h, if_neg h]
    show (((0#1 : BitVec 1).toNat : ℝ) : EReal) = 0
    simp

theorem eye_at (i j : Fin 128) :
    (val_main_v16 (F := Ideal)) (ix4 (0 : Fin 1) i j (0 : Fin 1)) = Cert.Basis.eye i j := by
  simp only [val_main_v16_apply, val_main_v15_apply, val_main_v14_apply, val_main_v13_apply, val_main_v12_apply,
    val_main_v10_apply, val_main_v11_apply, val_main_c_apply]
  exact sel_word i j

theorem ne_at (i j : Fin 128) :
    (val_main_v19 (F := Ideal)) (ix4 (0 : Fin 1) i j (0 : Fin 1)) = Cert.Basis.ne i j := by
  simp only [val_main_v19_apply, val_main_v18_apply, val_main_v17_apply, val_main_cst_apply, val_main_v15_apply, val_main_v14_apply, val_main_v13_apply, val_main_v12_apply,
    val_main_v10_apply, val_main_v11_apply, val_main_c_apply]
  exact congrArg (fun t => Ideal.ofBits .f32 0x3F800000#32 - t) (sel_word i j)

/-- Selecting by the words' comparison is selecting by the nodes' equality. -/
private theorem select_node (k i : Fin 128) (u : EReal) :
    Scalar.select (IntOp.cmpi .eq (BitVec.ofNat 32 k.val) (BitVec.ofNat 32 i.val)) u (0 : EReal)
      = if k = i then u else 0 := by
  rw [Cert.Basis.cmpi_eq_node]
  by_cases h : k = i
  · rw [if_pos h, if_pos h, select_one]
  · rw [if_neg h, if_neg h, select_zero]

theorem dg_at (i : Fin 128) (d : Fin 64) :
    val_main_v26 (F := Ideal) x0 x1 (ix3 b i d) = Cert.Basis.dg (aRef x0 x1 b) i d := by
  rw [val_main_v26_apply]
  have hk : ∀ k : Fin 128, idx_main_v26 (ix3 b i d) k = ix4 b k i d := fun k => by
    funext a; match a with | ⟨0, _⟩ => rfl | ⟨1, _⟩ => rfl | ⟨2, _⟩ => rfl | ⟨3, _⟩ => rfl
  simp only [hk, val_main_v25_apply, val_main_v23_apply, val_main_v22_apply, val_main_v20_apply, val_main_v21_apply,
    val_main_v24_apply, val_main_cst_0_apply, val_main_cst_1_apply, am_at]
  show (Ideal.ofBits .f32 0x00000000#32 : EReal) + ∑ k : Fin 128, Scalar.select (IntOp.cmpi .eq (BitVec.ofNat 32 k.val)
    (BitVec.ofNat 32 i.val)) (aRef x0 x1 b k i d) (Ideal.ofBits .f32 0x00000000#32) = aRef x0 x1 b i i d
  rw [Ideal.ofBits_zero_f32, zero_add]
  refine Eq.trans ?_ (Cert.Basis.sum_ite_diag (fun k => aRef x0 x1 b k i d) i)
  exact Finset.sum_congr rfl fun k _ => select_node k i _

theorem row_at (i : Fin 128) (d : Fin 64) :
    val_main_v28 (F := Ideal) x0 x1 (ix3 b i d) = Cert.Basis.row (aRef x0 x1 b) i d := by
  rw [val_main_v28_apply, val_main_v27_apply, dg_at]
  have hk : ∀ k : Fin 128, idx_main_v27 (ix3 b i d) k = ix4 b i k d := fun k => by
    funext a; match a with | ⟨0, _⟩ => rfl | ⟨1, _⟩ => rfl | ⟨2, _⟩ => rfl | ⟨3, _⟩ => rfl
  simp only [hk, am_at, val_main_cst_2_apply]
  show (Ideal.ofBits .f32 0x00000000#32 + ∑ k : Fin 128, aRef x0 x1 b i k d) - Cert.Basis.dg (aRef x0 x1 b) i d = _
  rw [Ideal.ofBits_zero_f32, zero_add]
  rfl

theorem col_at (i : Fin 128) (d : Fin 64) :
    val_main_v30 (F := Ideal) x0 x1 (ix3 b i d) = Cert.Basis.col (aRef x0 x1 b) i d := by
  rw [val_main_v30_apply, val_main_v29_apply, dg_at]
  have hk : ∀ k : Fin 128, idx_main_v29 (ix3 b i d) k = ix4 b k i d := fun k => by
    funext a; match a with | ⟨0, _⟩ => rfl | ⟨1, _⟩ => rfl | ⟨2, _⟩ => rfl | ⟨3, _⟩ => rfl
  simp only [hk, am_at, val_main_cst_3_apply]
  show (Ideal.ofBits .f32 0x00000000#32 + ∑ k : Fin 128, aRef x0 x1 b k i d) - Cert.Basis.dg (aRef x0 x1 b) i d = _
  rw [Ideal.ofBits_zero_f32, zero_add]
  rfl

theorem tr_at (d : Fin 64) : val_main_v31 (F := Ideal) x0 x1 (ix2 b d) = Cert.Basis.tr (aRef x0 x1 b) d := by
  rw [val_main_v31_apply]
  have hk : ∀ k : Fin 128, idx_main_v31 (ix2 b d) k = ix3 b k d := fun k => by
    funext a; match a with | ⟨0, _⟩ => rfl | ⟨1, _⟩ => rfl | ⟨2, _⟩ => rfl
  simp only [hk, dg_at, val_main_cst_4_apply]
  show (Ideal.ofBits .f32 0x00000000#32 + ∑ k : Fin 128, Cert.Basis.dg (aRef x0 x1 b) k d) = _
  rw [Ideal.ofBits_zero_f32, zero_add]
  rfl

/-- A host sum over the two node axes, at (b, d): the double sum over the node pairs. -/
private theorem sum_two_axes (h' : S8x128x128x64.ReducesTo [1, 2] S8x64) (x : S8x128x128x64.Idx → EReal) (d : Fin 64) :
    ∑ idx ∈ Finset.univ.filter (fun idx : S8x128x128x64.Idx => h'.drop idx = ix2 b d), x idx
      = ∑ i : Fin 128, ∑ j : Fin 128, x (ix4 b i j d) := by
  rw [← Fintype.sum_prod_type' (f := fun (i j : Fin 128) => x (ix4 b i j d))]
  have hdrop : ∀ idx : S8x128x128x64.Idx, h'.drop idx = ix2 b d ↔ ((idx 0).val = b.val ∧ (idx 3).val = d.val) := by
    intro idx
    constructor
    · intro e
      have e0 := congrArg (fun t => (t 0).val) e
      have e1 := congrArg (fun t => (t 1).val) e
      simp only [] at e0 e1
      rw [h'.drop_apply_val_of_eq idx 0 0] at e0
      rw [h'.drop_apply_val_of_eq idx 1 3] at e1
      exact ⟨e0, e1⟩
    · rintro ⟨e0, e1⟩
      funext a
      refine Fin.ext ?_
      match a with
      | ⟨0, _⟩ => exact (h'.drop_apply_val_of_eq idx 0 0).trans e0
      | ⟨1, _⟩ => exact (h'.drop_apply_val_of_eq idx 1 3).trans e1
  refine Finset.sum_nbij' (fun idx => ((idx 1 : Fin 128), (idx 2 : Fin 128))) (fun p => ix4 b p.1 p.2 d) ?_ ?_ ?_ ?_ ?_
  · intro idx _; exact Finset.mem_univ _
  · intro p _
    rw [Finset.mem_filter]
    exact ⟨Finset.mem_univ _, (hdrop _).mpr ⟨rfl, rfl⟩⟩
  · intro idx hidx
    rw [Finset.mem_filter] at hidx
    obtain ⟨e0, e1⟩ := (hdrop idx).mp hidx.2
    funext a
    refine Fin.ext ?_
    match a with
    | ⟨0, _⟩ => exact e0.symm
    | ⟨1, _⟩ => rfl
    | ⟨2, _⟩ => rfl
    | ⟨3, _⟩ => exact e1.symm
  · intro p _; rfl
  · intro idx hidx
    rw [Finset.mem_filter] at hidx
    obtain ⟨e0, e1⟩ := (hdrop idx).mp hidx.2
    refine congrArg x ?_
    funext a
    refine Fin.ext ?_
    match a with
    | ⟨0, _⟩ => exact e0
    | ⟨1, _⟩ => rfl
    | ⟨2, _⟩ => rfl
    | ⟨3, _⟩ => exact e1

theorem os_at (d : Fin 64) : val_main_v33 (F := Ideal) x0 x1 (ix2 b d) = Cert.Basis.os (aRef x0 x1 b) d := by
  rw [val_main_v33_apply, tr_at]
  have h32 : val_main_v32 (F := Ideal) x0 x1 (ix2 b d) = Cert.Basis.tot (aRef x0 x1 b) d := by
    unfold val_main_v32
    simp only [Host.reduceAdd, Ideal.hostReduceAdd_def]
    unfold Ideal.hostReduceAdd
    rw [sum_two_axes b reducesTo_S8x128x128x64_S8x64_d1_2 _ d]
    simp only [am_at, val_main_cst_5_apply]
    show (Ideal.ofBits .f32 0x00000000#32 + ∑ i : Fin 128, ∑ j : Fin 128, aRef x0 x1 b i j d) = _
    rw [Ideal.ofBits_zero_f32, zero_add]
    rfl
  rw [h32]
  rfl

end Cert.ReferenceIdeal.RefValue

end
-- ==== Proof.RefPieces.lean ====
/-
  The fifteen arrays the reference lays side by side, at an index, at the ideal instance: each is the corresponding
  basis array of the masked array of its batch element.
-/
import proofs.«132667_j17351667876255_1_alg».proof.Proof.RefBase

noncomputable section

namespace Cert.ReferenceIdeal.RefValue

open Cert.ReferenceIdeal Cert.ReferenceIdeal.Gen Cert.ReferenceIdeal.Read Idealize.ShloMosaic Idealize.ShloMosaic.ValueIdx

variable (x0 : (⟨S8x128x128x64, .f32⟩ : BufTy).Contents (Elt Ideal)) (x1 : (⟨S8x128, .i1⟩ : BufTy).Contents (Elt Ideal))
variable (b : Fin 8) (i j : Fin 128) (d : Fin 64)

/-- Two indices of a rank-2 shape agree when their coordinates do. -/
local macro "idx2" : tactic =>
  `(tactic| (funext a; match a with | ⟨0, _⟩ => rfl | ⟨1, _⟩ => rfl))
/-- Two indices of a rank-3 shape agree when their coordinates do. -/
local macro "idx3" : tactic =>
  `(tactic| (funext a; match a with | ⟨0, _⟩ => rfl | ⟨1, _⟩ => rfl | ⟨2, _⟩ => rfl))
/-- Two indices of a rank-4 shape agree when their coordinates do. -/
local macro "idx4" : tactic =>
  `(tactic| (funext a; match a with | ⟨0, _⟩ => rfl | ⟨1, _⟩ => rfl | ⟨2, _⟩ => rfl | ⟨3, _⟩ => rfl))

/-- Piece 0: the masked array on the diagonal. -/
theorem piece0_at : val_main_v35 (F := Ideal) x0 x1 (ix4 b i j d) = Cert.Basis.piece (aRef x0 x1 b) 0 i j d := by
  rw [val_main_v35_apply, val_main_v34_apply, (show idx_main_v34 (ix4 b i j d) = ix4 (0 : Fin 1) i j (0 : Fin 1) from by idx4), am_at, eye_at]
  rfl

/-- Piece 1: the masked array off the diagonal. -/
theorem piece1_at : val_main_v37 (F := Ideal) x0 x1 (ix4 b i j d) = Cert.Basis.piece (aRef x0 x1 b) 1 i j d := by
  rw [val_main_v37_apply, val_main_v36_apply, (show idx_main_v36 (ix4 b i j d) = ix4 (0 : Fin 1) i j (0 : Fin 1) from by idx4), am_at, ne_at]
  rfl

/-- Piece 2: the transposed masked array off the diagonal. -/
theorem piece2_at : val_main_v39 (F := Ideal) x0 x1 (ix4 b i j d) = Cert.Basis.piece (aRef x0 x1 b) 2 i j d := by
  rw [val_main_v39_apply, val_main_v38_apply, (show idx_main_v38 (ix4 b i j d) = ix4 (0 : Fin 1) i j (0 : Fin 1) from by idx4), amT_at, ne_at]
  rfl

/-- Piece 3: the diagonal spread along rows, off the diagonal. -/
theorem piece3_at : val_main_v43 (F := Ideal) x0 x1 (ix4 b i j d) = Cert.Basis.piece (aRef x0 x1 b) 3 i j d := by
  rw [val_main_v43_apply, val_main_v41_apply, val_main_v40_apply, val_main_v42_apply, (show idx_main_v42 (ix4 b i j d) = ix4 (0 : Fin 1) i j (0 : Fin 1) from by idx4),
    (show idx_main_v40 (idx_main_v41 (ix4 b i j d)) = ix3 b i d from by idx3), dg_at, ne_at]
  rfl

/-- Piece 4: the diagonal spread along columns, off the diagonal. -/
theorem piece4_at : val_main_v47 (F := Ideal) x0 x1 (ix4 b i j d) = Cert.Basis.piece (aRef x0 x1 b) 4 i j d := by
  rw [val_main_v47_apply, val_main_v45_apply, val_main_v44_apply, val_main_v46_apply, (show idx_main_v46 (ix4 b i j d) = ix4 (0 : Fin 1) i j (0 : Fin 1) from by idx4),
    (show idx_main_v44 (idx_main_v45 (ix4 b i j d)) = ix3 b j d from by idx3), dg_at, ne_at]
  rfl

/-- Piece 5: the off-diagonal row sums on the diagonal. -/
theorem piece5_at : val_main_v51 (F := Ideal) x0 x1 (ix4 b i j d) = Cert.Basis.piece (aRef x0 x1 b) 5 i j d := by
  rw [val_main_v51_apply, val_main_v49_apply, val_main_v48_apply, val_main_v50_apply, (show idx_main_v50 (ix4 b i j d) = ix4 (0 : Fin 1) i j (0 : Fin 1) from by idx4),
    (show idx_main_v48 (idx_main_v49 (ix4 b i j d)) = ix3 b i d from by idx3), row_at, eye_at]
  rfl

/-- Piece 6: the off-diagonal column sums on the diagonal. -/
theorem piece6_at : val_main_v55 (F := Ideal) x0 x1 (ix4 b i j d) = Cert.Basis.piece (aRef x0 x1 b) 6 i j d := by
  rw [val_main_v55_apply, val_main_v53_apply, val_main_v52_apply, val_main_v54_apply, (show idx_main_v54 (ix4 b i j d) = ix4 (0 : Fin 1) i j (0 : Fin 1) from by idx4),
    (show idx_main_v52 (idx_main_v53 (ix4 b i j d)) = ix3 b i d from by idx3), col_at, eye_at]
  rfl

/-- Piece 7: row sums spread along columns, less the transposed entry, off the diagonal. -/
theorem piece7_at : val_main_v60 (F := Ideal) x0 x1 (ix4 b i j d) = Cert.Basis.piece (aRef x0 x1 b) 7 i j d := by
  rw [val_main_v60_apply, val_main_v58_apply, val_main_v57_apply, val_main_v56_apply, val_main_v59_apply, (show idx_main_v59 (ix4 b i j d) = ix4 (0 : Fin 1) i j (0 : Fin 1) from by idx4),
    (show idx_main_v56 (idx_main_v57 (ix4 b i j d)) = ix3 b j d from by idx3), row_at, amT_at, ne_at]
  rfl

/-- Piece 8: column sums spread along rows, less the transposed entry, off the diagonal. -/
theorem piece8_at : val_main_v65 (F := Ideal) x0 x1 (ix4 b i j d) = Cert.Basis.piece (aRef x0 x1 b) 8 i j d := by
  rw [val_main_v65_apply, val_main_v63_apply, val_main_v62_apply, val_main_v61_apply, val_main_v64_apply, (show idx_main_v64 (ix4 b i j d) = ix4 (0 : Fin 1) i j (0 : Fin 1) from by idx4),
    (show idx_main_v61 (idx_main_v62 (ix4 b i j d)) = ix3 b i d from by idx3), col_at, amT_at, ne_at]
  rfl

/-- Piece 9: column sums spread along columns, less the entry, off the diagonal. -/
theorem piece9_at : val_main_v70 (F := Ideal) x0 x1 (ix4 b i j d) = Cert.Basis.piece (aRef x0 x1 b) 9 i j d := by
  rw [val_main_v70_apply, val_main_v68_apply, val_main_v67_apply, val_main_v66_apply, val_main_v69_apply, (show idx_main_v69 (ix4 b i j d) = ix4 (0 : Fin 1) i j (0 : Fin 1) from by idx4),
    (show idx_main_v66 (idx_main_v67 (ix4 b i j d)) = ix3 b j d from by idx3), col_at, am_at, ne_at]
  rfl

/-- Piece 10: row sums spread along rows, less the entry, off the diagonal. -/
theorem piece10_at : val_main_v75 (F := Ideal) x0 x1 (ix4 b i j d) = Cert.Basis.piece (aRef x0 x1 b) 10 i j d := by
  rw [val_main_v75_apply, val_main_v73_apply, val_main_v72_apply, val_main_v71_apply, val_main_v74_apply, (show idx_main_v74 (ix4 b i j d) = ix4 (0 : Fin 1) i j (0 : Fin 1) from by idx4),
    (show idx_main_v71 (idx_main_v72 (ix4 b i j d)) = ix3 b i d from by idx3), row_at, am_at, ne_at]
  rfl

/-- Piece 11: the trace less the diagonal entry, on the diagonal. -/
theorem piece11_at : val_main_v82 (F := Ideal) x0 x1 (ix4 b i j d) = Cert.Basis.piece (aRef x0 x1 b) 11 i j d := by
  rw [val_main_v82_apply, val_main_v80_apply, val_main_v79_apply, val_main_v81_apply, (show idx_main_v81 (ix4 b i j d) = ix4 (0 : Fin 1) i j (0 : Fin 1) from by idx4),
    (show idx_main_v79 (idx_main_v80 (ix4 b i j d)) = ix3 b i d from by idx3),
    val_main_v78_apply, val_main_v77_apply, val_main_v76_apply,
    (show idx_main_v76 (idx_main_v77 (ix3 b i d)) = ix2 b d from by idx2), tr_at, dg_at, eye_at]
  rfl

/-- Piece 12: the off-diagonal total less the row and column sums, on the diagonal. -/
theorem piece12_at : val_main_v90 (F := Ideal) x0 x1 (ix4 b i j d) = Cert.Basis.piece (aRef x0 x1 b) 12 i j d := by
  rw [val_main_v90_apply, val_main_v88_apply, val_main_v87_apply, val_main_v89_apply, (show idx_main_v89 (ix4 b i j d) = ix4 (0 : Fin 1) i j (0 : Fin 1) from by idx4),
    (show idx_main_v87 (idx_main_v88 (ix4 b i j d)) = ix3 b i d from by idx3),
    val_main_v86_apply, val_main_v85_apply, val_main_v84_apply, val_main_v83_apply,
    (show idx_main_v83 (idx_main_v84 (ix3 b i d)) = ix2 b d from by idx2), os_at, row_at, col_at, eye_at]
  rfl

/-- Piece 13: the trace less both diagonal entries, off the diagonal. -/
theorem piece13_at : val_main_v100 (F := Ideal) x0 x1 (ix4 b i j d) = Cert.Basis.piece (aRef x0 x1 b) 13 i j d := by
  rw [val_main_v100_apply, val_main_v98_apply, val_main_v96_apply, val_main_v94_apply, val_main_v93_apply,
    val_main_v91_apply, val_main_v92_apply, val_main_v97_apply, val_main_v95_apply, val_main_v99_apply, (show idx_main_v99 (ix4 b i j d) = ix4 (0 : Fin 1) i j (0 : Fin 1) from by idx4),
    (show idx_main_v91 (idx_main_v93 (idx_main_v96 (ix4 b i j d))) = ix2 b d from by idx2),
    (show idx_main_v92 (idx_main_v96 (ix4 b i j d)) = ix3 b i d from by idx3),
    (show idx_main_v95 (idx_main_v97 (ix4 b i j d)) = ix3 b j d from by idx3), tr_at, dg_at, dg_at, ne_at]
  rfl

/-- Piece 14: the off-diagonal total less the four row and column sums, plus the entry and its transpose, off the
    diagonal. -/
theorem piece14_at : val_main_v118 (F := Ideal) x0 x1 (ix4 b i j d) = Cert.Basis.piece (aRef x0 x1 b) 14 i j d := by
  rw [val_main_v118_apply, val_main_v116_apply, val_main_v115_apply, val_main_v114_apply, val_main_v111_apply,
    val_main_v108_apply, val_main_v106_apply, val_main_v104_apply, val_main_v103_apply, val_main_v101_apply,
    val_main_v102_apply, val_main_v107_apply, val_main_v105_apply, val_main_v110_apply, val_main_v109_apply,
    val_main_v113_apply, val_main_v112_apply, val_main_v117_apply, (show idx_main_v117 (ix4 b i j d) = ix4 (0 : Fin 1) i j (0 : Fin 1) from by idx4),
    (show idx_main_v101 (idx_main_v103 (idx_main_v106 (ix4 b i j d))) = ix2 b d from by idx2),
    (show idx_main_v102 (idx_main_v106 (ix4 b i j d)) = ix3 b i d from by idx3),
    (show idx_main_v105 (idx_main_v107 (ix4 b i j d)) = ix3 b j d from by idx3),
    (show idx_main_v109 (idx_main_v110 (ix4 b i j d)) = ix3 b i d from by idx3),
    (show idx_main_v112 (idx_main_v113 (ix4 b i j d)) = ix3 b j d from by idx3),
    os_at, row_at, row_at, col_at, col_at, am_at, amT_at, ne_at]
  rfl

end Cert.ReferenceIdeal.RefValue

end
-- ==== Proof.RefOut.lean ====
/-
  The reference's result at an index, at the ideal instance: the contraction over the 960 channels of the fifteen
  basis arrays laid side by side with the weight matrix.
-/
import proofs.«132667_j17351667876255_1_alg».proof.Proof.RefPieces
import Mathlib.Tactic.IntervalCases

noncomputable section

namespace Cert.ReferenceIdeal.RefValue

open Cert.ReferenceIdeal Cert.ReferenceIdeal.Gen Cert.ReferenceIdeal.Read Idealize.ShloMosaic Idealize.ShloMosaic.ValueIdx

/-- The fifteen arrays laid side by side along the last axis, by their number. -/
private def pcs (x0 : (⟨S8x128x128x64, .f32⟩ : BufTy).Contents (Elt Ideal)) (x1 : (⟨S8x128, .i1⟩ : BufTy).Contents (Elt Ideal))
    (n : Fin 15) : S8x128x128x64.Idx → Elt Ideal .f32 :=
  match n with
  | 0 => val_main_v35 (F := Ideal) x0 x1
  | 1 => val_main_v37 (F := Ideal) x0 x1
  | 2 => val_main_v39 (F := Ideal) x0 x1
  | 3 => val_main_v43 (F := Ideal) x0 x1
  | 4 => val_main_v47 (F := Ideal) x0 x1
  | 5 => val_main_v51 (F := Ideal) x0 x1
  | 6 => val_main_v55 (F := Ideal) x0 x1
  | 7 => val_main_v60 (F := Ideal) x0 x1
  | 8 => val_main_v65 (F := Ideal) x0 x1
  | 9 => val_main_v70 (F := Ideal) x0 x1
  | 10 => val_main_v75 (F := Ideal) x0 x1
  | 11 => val_main_v82 (F := Ideal) x0 x1
  | 12 => val_main_v90 (F := Ideal) x0 x1
  | 13 => val_main_v100 (F := Ideal) x0 x1
  | 14 => val_main_v118 (F := Ideal) x0 x1

/-- Channel K of the side-by-side array is channel K % 64 of array number K / 64: fifteen arrays of 64 channels each,
    the other three coordinates unchanged. -/
private theorem cat_at (x0 : (⟨S8x128x128x64, .f32⟩ : BufTy).Contents (Elt Ideal)) (x1 : (⟨S8x128, .i1⟩ : BufTy).Contents (Elt Ideal))
    (b : Fin 8) (i j : Fin 128) (K : Fin 960) (n : Fin 15) (hn : K.val / 64 = n.val) :
    val_main_v119 (F := Ideal) x0 x1 (ix4 b i j K) = pcs x0 x1 n (ix4 b i j (Cert.Basis.chan K)) := by
  unfold val_main_v119
  refine concatenate_ofFn_apply (t := S8x128x128x960) (s₁ := S8x128x128x64) 3 (pcs x0 x1) _ rfl 64 rfl (ix4 b i j K) n hn
    (ix4 b i j (Cert.Basis.chan K)) rfl ?_
  intro a ha
  match a, ha with
  | ⟨0, _⟩, _ => rfl
  | ⟨1, _⟩, _ => rfl
  | ⟨2, _⟩, _ => rfl
  | ⟨3, _⟩, ha => exact absurd rfl ha

/-- The result at (b, i, j, o) is the sum over the 960 channels K of the side-by-side array at (b, i, j, K) times the
    weight at (K, o); channel K is piece K / 64 of the masked array of batch element b at its channel K % 64. -/
theorem ref_out (x0 : (⟨S8x128x128x64, .f32⟩ : BufTy).Contents (Elt Ideal)) (x1 : (⟨S8x128, .i1⟩ : BufTy).Contents (Elt Ideal))
    (x2 : (⟨S960x64, .f32⟩ : BufTy).Contents (Elt Ideal)) (b : Fin 8) (i j : Fin 128) (o : Fin 64) :
    val_main_v120 (F := Ideal) x0 x1 x2 (ix4 b i j o)
      = Cert.Basis.out (aRef x0 x1 b) (fun K o => x2 (ix2 K o)) i j o := by
  rw [val_main_v120_apply]
  unfold Cert.Basis.out
  refine Finset.sum_congr rfl fun K _ => ?_
  have el : lidx_main_v120 (ix4 b i j o) K = ix4 b i j K := by
    funext a
    match a with
    | ⟨0, _⟩ => rfl
    | ⟨1, _⟩ => rfl
    | ⟨2, _⟩ => rfl
    | ⟨3, _⟩ => rfl
  have er : ridx_main_v120 (ix4 b i j o) K = ix2 K o := by
    funext a
    match a with
    | ⟨0, _⟩ => rfl
    | ⟨1, _⟩ => rfl
  rw [el, er]
  refine congrArg (· * x2 (ix2 K o)) ?_
  have hK : K.val / 64 < 15 := by have := K.isLt; omega
  rw [cat_at x0 x1 b i j K ⟨K.val / 64, hK⟩ rfl]
  generalize hq : K.val / 64 = q at hK
  interval_cases q
  · exact piece0_at x0 x1 b i j _
  · exact piece1_at x0 x1 b i j _
  · exact piece2_at x0 x1 b i j _
  · exact piece3_at x0 x1 b i j _
  · exact piece4_at x0 x1 b i j _
  · exact piece5_at x0 x1 b i j _
  · exact piece6_at x0 x1 b i j _
  · exact piece7_at x0 x1 b i j _
  · exact piece8_at x0 x1 b i j _
  · exact piece9_at x0 x1 b i j _
  · exact piece10_at x0 x1 b i j _
  · exact piece11_at x0 x1 b i j _
  · exact piece12_at x0 x1 b i j _
  · exact piece13_at x0 x1 b i j _
  · exact piece14_at x0 x1 b i j _

end Cert.ReferenceIdeal.RefValue

end
-- ==== Proof.RefArray.lean ====
/-
  The reference's result array is the layer's whole result of its three arguments.
-/
import proofs.«132667_j17351667876255_1_alg».proof.Proof.RefOut
import proofs.«132667_j17351667876255_1_alg».proof.Proof.Whole

noncomputable section

namespace Cert.ReferenceIdeal.RefValue

open Cert.ReferenceIdeal Cert.ReferenceIdeal.Gen Cert.ReferenceIdeal.Read Idealize.ShloMosaic Idealize.ShloMosaic.ValueIdx

theorem ref_whole (x0 : (⟨S8x128x128x64, .f32⟩ : BufTy).Contents (Elt Ideal)) (x1 : (⟨S8x128, .i1⟩ : BufTy).Contents (Elt Ideal))
    (x2 : (⟨S960x64, .f32⟩ : BufTy).Contents (Elt Ideal)) :
    val_main_v120 (F := Ideal) x0 x1 x2 = Cert.Basis.whole x0 x1 x2 := by
  funext y
  have hy : y = ix4 (⟨(y 0).val, (y 0).isLt⟩ : Fin 8) (⟨(y 1).val, (y 1).isLt⟩ : Fin 128) (⟨(y 2).val, (y 2).isLt⟩ : Fin 128)
      (⟨(y 3).val, (y 3).isLt⟩ : Fin 64) := by
    funext a
    match a with
    | ⟨0, _⟩ => rfl
    | ⟨1, _⟩ => rfl
    | ⟨2, _⟩ => rfl
    | ⟨3, _⟩ => rfl
  obtain ⟨b, p, q, r, rfl⟩ : ∃ (b : Fin 8) (p q : Fin 128) (r : Fin 64), y = ix4 b p q r := ⟨_, _, _, _, hy⟩
  exact ref_out x0 x1 x2 b p q r

end Cert.ReferenceIdeal.RefValue

end
-- ==== Proof.lean ====
/-
  Both programs compute one equivariant 2→2 layer.  For each batch element the input array A (128 × 128 × 64) is
  masked by the outer product of the node mask, and fifteen arrays of the same shape are built from the masked array a:
  a and its transpose cut by the diagonal selector or its complement, the diagonal, the off-diagonal row and column
  sums, the trace and the off-diagonal total, spread along rows, columns or everywhere (Proof/Spec.lean).  The result
  is the contraction of those fifteen arrays, side by side along the channel axis (960 = 15 · 64), with a 960 × 64
  weight matrix.

  The reference forms the 960-channel array and contracts it once.  The kernel, one grid point per batch element,
  contracts each of the fifteen arrays with its own 64 rows of the weights and adds the fifteen products one after the
  other onto zero.  At the ideal instance (a change of float format is the identity, a matrix product into a zero
  accumulator and the host's contraction are plain sums) the two are the same extended real: a sum over 960 = 15 · 64
  indices regrouped into fifteen runs of 64, which needs only that addition is commutative and associative, so the
  finiteness of the inputs is never used.  The diagonal is a sum against the selector in the kernel and a
  select-then-sum in the reference; both are the diagonal entry, because x · 0 = 0 and x · 1 = x for every extended
  real.

  The kernel's side: the base quantities, the fifteen arrays and the accumulated block at an index
  (Proof/KernelBase.lean, KernelPieces.lean, KernelBlock.lean), then from blocks to the array (Proof/KernelArray.lean:
  point t writes batch element t, and the eight blocks cover the array).  The reference's side: the same three steps
  over the host program's values (Proof/RefBase.lean, RefPieces.lean, RefOut.lean, RefArray.lean).  Both end at the one
  function Cert.Basis.whole of the three arguments (Proof/Whole.lean).

  The three frames: the two kernel programs' are the generated frame certificates; the reference has no kernel, and
  its frame is its generated run with the result dropped.  The idealization rewrote no operation, so the preservation
  claim is trivial.
-/
import proofs.«132667_j17351667876255_1_alg».proof.Defs
import proofs.«132667_j17351667876255_1_alg».proof.Proof.Gen.Kernel
import proofs.«132667_j17351667876255_1_alg».proof.Proof.Gen.Kernel.Skeleton
import proofs.«132667_j17351667876255_1_alg».proof.Proof.Gen.Kernel.Launch
import proofs.«132667_j17351667876255_1_alg».proof.Proof.Gen.Kernel.Points
import proofs.«132667_j17351667876255_1_alg».proof.Proof.Gen.Kernel.Frame
import proofs.«132667_j17351667876255_1_alg».proof.Proof.Gen.KernelIdeal
import proofs.«132667_j17351667876255_1_alg».proof.Proof.Gen.KernelIdeal.Skeleton
import proofs.«132667_j17351667876255_1_alg».proof.Proof.Gen.KernelIdeal.Launch
import proofs.«132667_j17351667876255_1_alg».proof.Proof.Gen.KernelIdeal.Points
import proofs.«132667_j17351667876255_1_alg».proof.Proof.Gen.KernelIdeal.Frame
import proofs.«132667_j17351667876255_1_alg».proof.Proof.Gen.ReferenceIdeal
import proofs.«132667_j17351667876255_1_alg».proof.Proof.Gen.Pre_finite_inputs
import proofs.«132667_j17351667876255_1_alg».proof.Proof.Gen.KernelIdeal.Value
import proofs.«132667_j17351667876255_1_alg».proof.Proof.Gen.ReferenceIdeal.Run
import proofs.«132667_j17351667876255_1_alg».proof.Proof.Gen.ReferenceIdeal.Read
import proofs.«132667_j17351667876255_1_alg».proof.Proof.KernelArray
import proofs.«132667_j17351667876255_1_alg».proof.Proof.RefArray
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, the result dropped
    exact fun m ρ _ => (θ_run Cert.ReferenceIdeal.defs _ _).mono (fun _ h c => (h c).2)
      (Cert.ReferenceIdeal.Value.run (F := Ideal) m ρ)
  · -- both runs end at the layer's whole result of arguments that agree
    intro m ρ m' ρ' _ hagree
    refine ⟨_, Cert.KernelIdeal.Arr.run m ρ, ?_⟩
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v120_eq, Cert.ReferenceIdeal.RefValue.ref_whole, (hagree c).1,
      (hagree c).2.1, (hagree c).2.2]⟩

end Cert.Proof

end
